-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096x16 .f32) (main_arg6 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg5
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x64 .f32) (main_arg3 : FVec F S4096x64 .f32) (main_arg4 : FVec F S16x4096 .f32) (main_arg5 : FVec F S4096x16 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S512x1024 : Shape := ⟨2, ![512, 1024]⟩
abbrev S512x64 : Shape := ⟨2, ![512, 64]⟩
abbrev S16x1024 : Shape := ⟨2, ![16, 1024]⟩
abbrev S512x16 : Shape := ⟨2, ![512, 16]⟩
abbrev S1x512 : Shape := ⟨2, ![1, 512]⟩
abbrev S1024x512 : Shape := ⟨2, ![1024, 512]⟩
abbrev S1024x16 : Shape := ⟨2, ![1024, 16]⟩
abbrev S512x16x64 : Shape := ⟨3, ![512, 16, 64]⟩
abbrev S512x16x1 : Shape := ⟨3, ![512, 16, 1]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S16x1024, .f32⟩
  | .local _ .vmem, ⟨9, _⟩ => ⟨S16x1024, .f32⟩
  | .local _ .vmem, ⟨10, _⟩ => ⟨S512x16, .f32⟩
  | .local _ .vmem, ⟨11, _⟩ => ⟨S512x16, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 4], ![false, false, false]⟩

def k0_mult1 (i : grid0.Coords) : BitVec 32 :=
  let arg2 : BitVec 32 := BitVec.ofNat 32 (i 2).val
  let c16_i32 : BitVec 32 := 16#32
  let v6 : BitVec 32 := Scalar.muli arg2 c16_i32
  v6
def k0_off1 (i : grid0.Coords) : Fin 2 → Nat :=
  let c0_4 : Index := 0#32
  let arg2 : BitVec 32 := BitVec.ofNat 32 (i 2).val
  let c16_i32 : BitVec 32 := 16#32
  let v6 : BitVec 32 := Scalar.muli arg2 c16_i32
  let v7 : BitVec 32 := v6
  let v8 : Index := Scalar.indexCast v7
  ![0, v8.toNat]
def k0_cond2 (i : grid0.Coords) : BitVec 1 :=
  let arg2 : BitVec 32 := BitVec.ofNat 32 (i 2).val
  let c3_i32 : BitVec 32 := 3#32
  let v36 : BitVec 1 := Scalar.cmpi .eq arg2 c3_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  h_S512x16 : 0 < S512x16.numel
  shapeCasts_S512x1024_S512x16x64 : S512x1024.ShapeCasts S512x16x64
  shapeCasts_S512x16_S512x16x1 : S512x16.ShapeCasts S512x16x1
  broadcasts_S512x16x1_S512x16x64 : S512x16x1.Broadcasts S512x16x64
  shapeCasts_S512x16x64_S512x1024 : S512x16x64.ShapeCasts S512x1024
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S512x16_S512x16_0_0 : ∀ a, (![0, 0] : Fin 2 → Nat) a + S512x16.size a ≤ S512x16.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x1024_S512x1024_S1024x512_1_1_0_0_n_n_wf : DotDims.WF S1024x1024 S512x1024 S1024x512 [1] [1] [0] [0] [] []
  dot_S1024x1024_S16x1024_S1024x16_1_1_0_0_n_n_wf : DotDims.WF S1024x1024 S16x1024 S1024x16 [1] [1] [0] [0] [] []
  dot_S1024x16_S512x16_S1024x512_1_1_0_0_n_n_wf : DotDims.WF S1024x16 S512x16 S1024x512 [1] [1] [0] [0] [] []
  hrank0 : 0 < grid0.rank
  k0_mult1_dvd : ∀ i : grid0.Coords, 16 ∣ (k0_mult1 i).toNat
  k0_off1_inb : ∀ i : grid0.Coords, ∀ a, (k0_off1 i) a + S512x16.size a ≤ S512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .f32 = 32 ∨ (Rect.block (s := S16x4096) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S4096x16.size a
  hwx0_5 : ∀ i : grid0.Coords, EltTy.bits .f32 = 32 ∨ (Rect.block (s := S4096x16) S512x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x4096.size a
  hwx0_7 : ∀ i : grid0.Coords, EltTy.bits .f32 = 32 ∨ (Rect.block (s := S8192x4096) S1024x512.size (cc0_transform_7 i) (hinb0_7 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S512x16_S1024x512_1_1_0_0_n_n : DotDims S1024x16 S512x16 S1024x512 where
  lhsContracting := [1]
  rhsContracting := [1]
  lhsNonContracting := [0]
  rhsNonContracting := [0]
  lhsBatch := []
  rhsBatch := []
  wf := dot_S1024x16_S512x16_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S4096x64x64 : Shape := ⟨3, ![4096, 64, 64]⟩
abbrev S4096x64x1 : Shape := ⟨3, ![4096, 64, 1]⟩
abbrev S4x2048x16 : Shape := ⟨3, ![4, 2048, 16]⟩
abbrev S_ : Shape := ⟨0, ![]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S4096x4096, .f32⟩
  | .hbm, ⟨8, _⟩ => ⟨S4096x64x64, .f32⟩
  | .hbm, ⟨9, _⟩ => ⟨S4096x64x1, .f32⟩
  | .hbm, ⟨10, _⟩ => ⟨S4096x64x64, .f32⟩
  | .hbm, ⟨11, _⟩ => ⟨S4096x64x64, .f32⟩
  | .hbm, ⟨12, _⟩ => ⟨S4096x64x1, .f32⟩
  | .hbm, ⟨13, _⟩ => ⟨S4096x64x64, .f32⟩
  | .hbm, ⟨14, _⟩ => ⟨S4096x64x64, .f32⟩
  | .hbm, ⟨15, _⟩ => ⟨S4096x4096, .f32⟩
  | .hbm, ⟨16, _⟩ => ⟨S4x2048x4096, .f32⟩
  | .hbm, ⟨17, _⟩ => ⟨S4x2048x16, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one run of the kernel body leaves in the two running sums it keeps between grid steps and in the
  output block, as the body's arithmetic applied to the blocks it loads — in each of the three ways the body
  can run: the first step of a reduction (both running sums reset to zero, then updated), a middle step
  (updated over what the step before left), the last step (updated, then combined into the output block).
  Every load and store is of a whole buffer, except the loads of the scales and zero points, which read the
  16 columns belonging to the step's quantisation groups out of the 64 (`cols16`).
-/
import proofs.«165903_j31705448579867_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The 16 columns of a [512, 64] block of per-group parameters that the step at grid coordinates `i` uses:
    columns `16 * i₂ .. 16 * i₂ + 15`, the groups of the step's 1024 input features. -/
def cols16 (i : grid0.Coords) (x : Vec F S512x64 .f32) : Vec F S512x16 .f32 :=
  View.ld x (Rect.unit (s := S512x64) (k0_off1 i) S512x16.size (k0_off1_inb i))

/-- A reduction's FIRST step leaves in the [1024, 512] running sum the step's stored value over the zero block it has just stored (the reset is read back before the update). -/
theorem piece_A_0 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : cond0_0 i) (hc1 : ¬cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = k0_pay6 x0 x1 (cols16 i x2) (cols16 i x3) (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x512) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]
  rfl

/-- and in the [1024, 16] running sum the low-rank update over its zero block. -/
theorem piece_A_1 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : cond0_0 i) (hc1 : ¬cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6
      = k0_pay1 (k0_pay7 x0 x4 (k0_pay4 (F := F))) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x16) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]

/-- A MIDDLE step leaves in the [1024, 512] running sum the step's stored value over what the step before left (`xs0`). -/
theorem piece_B_0 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : ¬cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) (xs0 : Vec F S1024x512 .f32) (xs1 : Vec F S1024x16 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay6 x0 x1 (cols16 i x2) (cols16 i x3) xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]
  rfl

/-- and in the [1024, 16] running sum the low-rank update over what the step before left (`xs1`). -/
theorem piece_B_1 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : ¬cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) (xs0 : Vec F S1024x512 .f32) (xs1 : Vec F S1024x16 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay1 (k0_pay7 x0 x4 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]

/-- The LAST step updates the two running sums like a middle step, -/
theorem piece_C_0 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) (xs0 : Vec F S1024x512 .f32) (xs1 : Vec F S1024x16 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay6 x0 x1 (cols16 i x2) (cols16 i x3) xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]
  rfl

/-- both of them, -/
theorem piece_C_1 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) (xs0 : Vec F S1024x512 .f32) (xs1 : Vec F S1024x16 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay1 (k0_pay7 x0 x4 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]

/-- and stores into the output block the combination of the two UPDATED running sums (each read back after its store) with the B tile `x5` and the bias row `x6`. -/
theorem piece_C_7 (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x64 .f32) (harg5 : arg5.IsWhole) (arg6 : Memref sig .tc .vmem S512x64 .f32) (harg6 : arg6.IsWhole) (arg7 : Memref sig .tc .vmem S16x1024 .f32) (harg7 : arg7.IsWhole) (arg8 : Memref sig .tc .vmem S512x16 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : cond0_1 i)
    (x0 : Vec F S1024x1024 .f32) (x1 : Vec F S512x1024 .i32) (x2 : Vec F S512x64 .f32) (x3 : Vec F S512x64 .f32) (x4 : Vec F S16x1024 .f32) (x5 : Vec F S512x16 .f32) (x6 : Vec F S1x512 .f32) (xs0 : Vec F S1024x512 .f32) (xs1 : Vec F S1024x16 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay2 x5 (k0_pay1 (k0_pay7 x0 x4 xs1)) x6 (k0_pay6 x0 x1 (cols16 i x2) (cols16 i x3) xs0) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x512) _ hz, View.readCov_unit_zero (S := S1024x16) _ hz]
  rfl

end Cert.KernelIdeal.Pieces

end
-- ==== Proof.Steps.lean ====
/-
  The two running sums and the output block after each grid step, as the body's arithmetic of the step's
  blocks — and a whole reduction (four consecutive steps 4q, 4q+1, 4q+2, 4q+3: the first resets, the last
  combines) unrolled: what the last step stores into the output block is the combination of the two sums
  built up, in order, over the four steps from zero blocks.
-/
import proofs.«165903_j31705448579867_1_alg».proof.Proof.Pieces

set_option maxRecDepth 16384

noncomputable section

namespace Cert.KernelIdeal.Steps

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The blocks the step at point `t` loads: x, the integer codes, the scales, the zero points, A, B, the bias row. -/
abbrev bx (c : Dev nD) (t : Fin cfg0.N) : Vec F S1024x1024 .f32 := iblk m c 0 t
abbrev bq (c : Dev nD) (t : Fin cfg0.N) : Vec F S512x1024 .i32 := iblk m c 1 t
abbrev bs (c : Dev nD) (t : Fin cfg0.N) : Vec F S512x64 .f32 := iblk m c 2 t
abbrev bz (c : Dev nD) (t : Fin cfg0.N) : Vec F S512x64 .f32 := iblk m c 3 t
abbrev bA (c : Dev nD) (t : Fin cfg0.N) : Vec F S16x1024 .f32 := iblk m c 4 t
abbrev bB (c : Dev nD) (t : Fin cfg0.N) : Vec F S512x16 .f32 := iblk m c 5 t
abbrev bb (c : Dev nD) (t : Fin cfg0.N) : Vec F S1x512 .f32 := iblk m c 6 t

/-- The step at `t` applied to the [1024, 512] running sum `acc`. -/
def stepY (c : Dev nD) (t : Fin cfg0.N) (acc : Vec F S1024x512 .f32) : Vec F S1024x512 .f32 :=
  k0_pay6 (bx m c t) (bq m c t) (cols16 (grid0.coords t) (bs m c t)) (cols16 (grid0.coords t) (bz m c t)) acc
/-- The step at `t` applied to the [1024, 16] running sum `acc`. -/
def stepA (c : Dev nD) (t : Fin cfg0.N) (acc : Vec F S1024x16 .f32) : Vec F S1024x16 .f32 :=
  k0_pay1 (k0_pay7 (bx m c t) (bA m c t) acc)
/-- The last step's combination of the two sums with the step's B tile and bias row. -/
def combine (c : Dev nD) (t : Fin cfg0.N) (y : Vec F S1024x512 .f32) (a : Vec F S1024x16 .f32) : Vec F S1024x512 .f32 :=
  k0_pay2 (bB m c t) a (bb m c t) y

/-- The two running sums after the point before `t`. -/
abbrev prevY (c : Dev nD) (t : Fin cfg0.N) : Vec F S1024x512 .f32 :=
  (outsAt0 m c (t.val - 1) (Nat.lt_of_le_of_lt (Nat.sub_le _ _) t.isLt)).2.1
abbrev prevA (c : Dev nD) (t : Fin cfg0.N) : Vec F S1024x16 .f32 :=
  (outsAt0 m c (t.val - 1) (Nat.lt_of_le_of_lt (Nat.sub_le _ _) t.isLt)).2.2

/-- After a reduction's first step: both sums are the step applied to zero blocks. -/
theorem sums_first (c : Dev nD) (t : Fin cfg0.N) (h0 : t.val % 4 = 0) (h1 : ¬t.val % 4 = 3) :
    (outsAt0 m c t.val t.isLt).2 = (stepY m c t (k0_pay3 (F := F)), stepA m c t (k0_pay4 (F := F))) := by
  rw [outsAt0_A m c t h0 h1]
  dsimp only
  exact congrArg₂ Prod.mk
    (piece_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
    (piece_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))

/-- After a middle step: both sums are the step applied to what the step before left. -/
theorem sums_middle (c : Dev nD) (t : Fin cfg0.N) (h0 : ¬t.val % 4 = 0) (h1 : ¬t.val % 4 = 3) :
    (outsAt0 m c t.val t.isLt).2 = (stepY m c t (prevY m c t), stepA m c t (prevA m c t)) := by
  rw [outsAt0_B m c t h0 h1]
  dsimp only
  exact congrArg₂ Prod.mk
    (piece_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2)
    (piece_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2)

/-- After a last step: the output block is the combination of the two updated sums. -/
theorem out_last (c : Dev nD) (t : Fin cfg0.N) (h0 : ¬t.val % 4 = 0) (h1 : t.val % 4 = 3) :
    (outsAt0 m c t.val t.isLt).1 = combine m c t (stepY m c t (prevY m c t)) (stepA m c t (prevA m c t)) := by
  rw [outsAt0_C m c t h0 h1]
  dsimp only
  exact piece_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Blocks.lean ====
/-
  Where the blocks of a grid step sit in the arrays. The grid is (8, 8, 4): point `t` is row block `t / 32`
  of the 8192 rows, column block `t / 4 % 8` of the 4096 output features, reduction position `t % 4` of the four
  tiles of 1024 input features. So the step's x tile is rows `1024 (t / 32) ..`, features `1024 (t % 4) ..` of the
  flattened x; its code tile is outputs `512 (t / 4 % 8) ..`, the same features; its scales and zero points are those
  outputs' rows, of which the body takes the 16 columns `16 (t % 4) ..` (the tile's quantisation groups); its A tile
  is the same features; its B tile and bias those outputs. The flattened x and the bias row are reshapes of the
  arguments: row `R` of the flattened x is `x[R / 2048, R % 2048, ·]`.
-/
import proofs.«165903_j31705448579867_1_alg».proof.Proof.Steps
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Pieces Cert.KernelIdeal.Steps
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The arrays as the region finds them, at their literal types: the flattened x, the codes, scales, zero points,
    A, B, and the bias as a row. -/
abbrev X2 (c : Dev nD) : Vec F S8192x4096 .f32 := V m c main_v0
abbrev Qw (c : Dev nD) : Vec F S4096x4096 .i32 := V m c main_arg1
abbrev Sc (c : Dev nD) : Vec F S4096x64 .f32 := V m c main_arg2
abbrev Zp (c : Dev nD) : Vec F S4096x64 .f32 := V m c main_arg3
abbrev Am (c : Dev nD) : Vec F S16x4096 .f32 := V m c main_arg4
abbrev Bm (c : Dev nD) : Vec F S4096x16 .f32 := V m c main_arg5
abbrev B2 (c : Dev nD) : Vec F S1x4096 .f32 := V m c main_v1

/-! ## Where the windows' blocks sit over the grid -/

/-- The x window's block index at point `t`: row block `t / 32`, reduction position `t % 4`. -/
theorem idx0 : ∀ t : Fin cfg0.N, win0_0.index t (0 : Fin 2) = t.val / 32 ∧ win0_0.index t (1 : Fin 2) = t.val % 4 :=
  (by decide +kernel : ∀ t : Fin grid0.N, _)
/-- The code window's: column block `t / 4 % 8`, reduction position `t % 4`. -/
theorem idx1 : ∀ t : Fin cfg0.N, win0_1.index t (0 : Fin 2) = t.val / 4 % 8 ∧ win0_1.index t (1 : Fin 2) = t.val % 4 :=
  (by decide +kernel : ∀ t : Fin grid0.N, _)
/-- The scale window's: column block `t / 4 % 8`, all 64 groups. -/
theorem idx2 : ∀ t : Fin cfg0.N, win0_2.index t (0 : Fin 2) = t.val / 4 % 8 ∧ win0_2.index t (1 : Fin 2) = 0 :=
  (by decide +kernel : ∀ t : Fin grid0.N, _)
/-- The zero-point window's: the same. -/
theorem idx3 : ∀ t : Fin cfg0.N, win0_3.index t (0 : Fin 2) = t.val / 4 % 8 ∧ win0_3.index t (1 : Fin 2) = 0 :=
  (by decide +kernel : ∀ t : Fin grid0.N, _)
/-- The A window's: all 16 rows, reduction position `t % 4`. -/
theorem idx4 : ∀ t : Fin cfg0.N, win0_4.index t (0 : Fin 2) = 0 ∧ win0_4.index t (1 : Fin 2) = t.val % 4 :=
  (by decide +kernel : ∀ t : Fin grid0.N, _)
/-- The B window's: column block `t / 4 % 8`, all 16 columns. -/
theorem idx5 : ∀ t : Fin cfg0.N, win0_5.index t (0 : Fin 2) = t.val / 4 % 8 ∧ win0_5.index t (1 : Fin 2) = 0 :=
  (by decide +kernel : ∀ t : Fin grid0.N, _)
/-- The bias window's: the one row, column block `t / 4 % 8`. -/
theorem idx6 : ∀ t : Fin cfg0.N, win0_6.index t (0 : Fin 2) = 0 ∧ win0_6.index t (1 : Fin 2) = t.val / 4 % 8 :=
  (by decide +kernel : ∀ t : Fin grid0.N, _)
/-- The column offset of the 16 groups the step takes: `16 (t % 4)`, from row 0. -/
theorem off1 : ∀ t : Fin cfg0.N, k0_off1 (grid0.coords t) (0 : Fin 2) = 0 ∧ k0_off1 (grid0.coords t) (1 : Fin 2) = 16 * (t.val % 4) :=
  (by decide +kernel : ∀ t : Fin grid0.N, _)

/-! ## The step's blocks read at an index -/

theorem bx_apply (c : Dev nD) (t : Fin cfg0.N) (r j : Fin 1024) :
    bx m c t (ix2 r j)
      = X2 m c (ix2 ⟨1024 * (t.val / 32) + r.val, by have := t.isLt; have hN : cfg0.N = 256 := N_0; omega⟩ ⟨1024 * (t.val % 4) + j.val, by have := t.isLt; have hN : cfg0.N = 256 := N_0; omega⟩) := by
  unfold bx iblk
  rw [View.read_apply]
  show V m c main_v0 _ = V m c main_v0 _
  congr 1
  funext a
  apply Fin.ext
  match a with
  | ⟨0, _⟩ =>
    show win0_0.index t (0 : Fin 2) * 1024 + 1 * r.val = 1024 * (t.val / 32) + r.val
    rw [(idx0 t).1]; omega
  | ⟨1, _⟩ =>
    show win0_0.index t (1 : Fin 2) * 1024 + 1 * j.val = 1024 * (t.val % 4) + j.val
    rw [(idx0 t).2]; omega

theorem bq_apply (c : Dev nD) (t : Fin cfg0.N) (o : Fin 512) (j : Fin 1024) :
    bq m c t (ix2 o j)
      = Qw m c (ix2 ⟨512 * (t.val / 4 % 8) + o.val, by have := t.isLt; have hN : cfg0.N = 256 := N_0; omega⟩ ⟨1024 * (t.val % 4) + j.val, by have := t.isLt; have hN : cfg0.N = 256 := N_0; omega⟩) := by
  unfold bq iblk
  rw [View.read_apply]
  show V m c main_arg1 _ = V m c main_arg1 _
  congr 1
  funext a
  apply Fin.ext
  match a with
  | ⟨0, _⟩ =>
    show win0_1.index t (0 : Fin 2) * 512 + 1 * o.val = 512 * (t.val / 4 % 8) + o.val
    rw [(idx1 t).1]; omega
  | ⟨1, _⟩ =>
    show win0_1.index t (1 : Fin 2) * 1024 + 1 * j.val = 1024 * (t.val % 4) + j.val
    rw [(idx1 t).2]; omega

/-- The 16 columns of the scales the step uses, read at (o, g): group `16 (t % 4) + g` of output `512 (t / 4 % 8) + o`. -/
theorem bs_apply (c : Dev nD) (t : Fin cfg0.N) (o : Fin 512) (g : Fin 16) :
    cols16 (grid0.coords t) (bs m c t) (ix2 o g)
      = Sc m c (ix2 ⟨512 * (t.val / 4 % 8) + o.val, by have := t.isLt; have hN : cfg0.N = 256 := N_0; omega⟩ ⟨16 * (t.val % 4) + g.val, by have := t.isLt; have hN : cfg0.N = 256 := N_0; omega⟩) := by
  unfold cols16
  show bs m c t _ = _
  unfold bs iblk
  rw [View.read_apply]
  show V m c main_arg2 _ = V m c main_arg2 _
  congr 1
  funext a
  apply Fin.ext
  match a with
  | ⟨0, _⟩ =>
    show win0_2.index t (0 : Fin 2) * 512 + 1 * (k0_off1 (grid0.coords t) (0 : Fin 2) + 1 * o.val) = 512 * (t.val / 4 % 8) + o.val
    rw [(idx2 t).1, (off1 t).1]; omega
  | ⟨1, _⟩ =>
    show win0_2.index t (1 : Fin 2) * 64 + 1 * (k0_off1 (grid0.coords t) (1 : Fin 2) + 1 * g.val) = 16 * (t.val % 4) + g.val
    rw [(idx2 t).2, (off1 t).2]; omega

theorem bz_apply (c : Dev nD) (t : Fin cfg0.N) (o : Fin 512) (g : Fin 16) :
    cols16 (grid0.coords t) (bz m c t) (ix2 o g)
      = Zp m c (ix2 ⟨512 * (t.val / 4 % 8) + o.val, by have := t.isLt; have hN : cfg0.N = 256 := N_0; omega⟩ ⟨16 * (t.val % 4) + g.val, by have := t.isLt; have hN : cfg0.N = 256 := N_0; omega⟩) := by
  unfold cols16
  show bz m c t _ = _
  unfold bz iblk
  rw [View.read_apply]
  show V m c main_arg3 _ = V m c main_arg3 _
  congr 1
  funext a
  apply Fin.ext
  match a with
  | ⟨0, _⟩ =>
    show win0_3.index t (0 : Fin 2) * 512 + 1 * (k0_off1 (grid0.coords t) (0 : Fin 2) + 1 * o.val) = 512 * (t.val / 4 % 8) + o.val
    rw [(idx3 t).1, (off1 t).1]; omega
  | ⟨1, _⟩ =>
    show win0_3.index t (1 : Fin 2) * 64 + 1 * (k0_off1 (grid0.coords t) (1 : Fin 2) + 1 * g.val) = 16 * (t.val % 4) + g.val
    rw [(idx3 t).2, (off1 t).2]; omega

theorem bA_apply (c : Dev nD) (t : Fin cfg0.N) (ρ : Fin 16) (j : Fin 1024) :
    bA m c t (ix2 ρ j) = Am m c (ix2 ρ ⟨1024 * (t.val % 4) + j.val, by have := t.isLt; have hN : cfg0.N = 256 := N_0; omega⟩) := by
  unfold bA iblk
  rw [View.read_apply]
  show V m c main_arg4 _ = V m c main_arg4 _
  congr 1
  funext a
  apply Fin.ext
  match a with
  | ⟨0, _⟩ =>
    show win0_4.index t (0 : Fin 2) * 16 + 1 * ρ.val = ρ.val
    rw [(idx4 t).1]; omega
  | ⟨1, _⟩ =>
    show win0_4.index t (1 : Fin 2) * 1024 + 1 * j.val = 1024 * (t.val % 4) + j.val
    rw [(idx4 t).2]; omega

theorem bB_apply (c : Dev nD) (t : Fin cfg0.N) (o : Fin 512) (ρ : Fin 16) :
    bB m c t (ix2 o ρ) = Bm m c (ix2 ⟨512 * (t.val / 4 % 8) + o.val, by have := t.isLt; have hN : cfg0.N = 256 := N_0; omega⟩ ρ) := by
  unfold bB iblk
  rw [View.read_apply]
  show V m c main_arg5 _ = V m c main_arg5 _
  congr 1
  funext a
  apply Fin.ext
  match a with
  | ⟨0, _⟩ =>
    show win0_5.index t (0 : Fin 2) * 512 + 1 * o.val = 512 * (t.val / 4 % 8) + o.val
    rw [(idx5 t).1]; omega
  | ⟨1, _⟩ =>
    show win0_5.index t (1 : Fin 2) * 16 + 1 * ρ.val = ρ.val
    rw [(idx5 t).2]; omega

theorem bb_apply (c : Dev nD) (t : Fin cfg0.N) (o : Fin 512) :
    bb m c t (ix2 (0 : Fin 1) o) = B2 m c (ix2 (0 : Fin 1) ⟨512 * (t.val / 4 % 8) + o.val, by have := t.isLt; have hN : cfg0.N = 256 := N_0; omega⟩) := by
  unfold bb iblk
  rw [View.read_apply]
  show V m c main_v1 _ = V m c main_v1 _
  congr 1
  funext a
  apply Fin.ext
  match a with
  | ⟨0, _⟩ =>
    show win0_6.index t (0 : Fin 2) * 1 + 1 * (0 : Fin 1).val = (0 : Fin 1).val
    rw [(idx6 t).1]; rfl
  | ⟨1, _⟩ =>
    show win0_6.index t (1 : Fin 2) * 512 + 1 * o.val = 512 * (t.val / 4 % 8) + o.val
    rw [(idx6 t).2]; omega

/-! ## The arrays the host lines before the region write, and the arguments as the region finds them -/

/-- Row `R` of the flattened x is `x[R / 2048, R % 2048, ·]`. -/
theorem X2_apply (c : Dev nD) (R : Fin 8192) (i : Fin 4096) :
    X2 m c (ix2 R i)
      = (m ((c : Thread nD τ).loc main_arg0) : Vec F S4x2048x4096 .f32)
          (ix3 ⟨R.val / 2048, by have := R.isLt; omega⟩ ⟨R.val % 2048, by omega⟩ i) := by
  have e : (V m c main_v0 : S8192x4096.Idx → Elt F .f32)
      = shapeCast S8192x4096 (m ((c : Thread nD τ).loc main_arg0)) shapeCasts_S4x2048x4096_S8192x4096 := by
    show StableHlo.after hostOps0 (fun b => m (c, b)) (Proc.devRef .tc main_v0) = _
    after_results
    rfl
  show (V m c main_v0 : S8192x4096.Idx → Elt F .f32) _ = _
  rw [e]
  refine shapeCast_apply (s := S4x2048x4096) (t := S8192x4096) _ _ _ _ ?_
  rw [Shape.rowMajor_val_two, Shape.rowMajor_val_three]
  show (R.val / 2048 * 2048 + R.val % 2048) * 4096 + i.val = R.val * 4096 + i.val
  have := Nat.div_add_mod R.val 2048
  omega

/-- The bias row is the bias. -/
theorem B2_apply (c : Dev nD) (o : Fin 4096) :
    B2 m c (ix2 (0 : Fin 1) o) = (m ((c : Thread nD τ).loc main_arg6) : Vec F S4096 .f32) (ix1 o) := by
  have e : (V m c main_v1 : S1x4096.Idx → Elt F .f32)
      = shapeCast S1x4096 (m ((c : Thread nD τ).loc main_arg6)) shapeCasts_S4096_S1x4096 := by
    show StableHlo.after hostOps0 (fun b => m (c, b)) (Proc.devRef .tc main_v1) = _
    after_results
    rfl
  show (V m c main_v1 : S1x4096.Idx → Elt F .f32) _ = _
  rw [e]
  refine shapeCast_apply (s := S4096) (t := S1x4096) _ _ _ _ ?_
  rw [Shape.rowMajor_val_two, Shape.rowMajor_val_one]
  show o.val = (0 : Fin 1).val * 4096 + o.val
  show o.val = 0 * 4096 + o.val
  omega

theorem Qw_eq (c : Dev nD) : Qw m c = m ((c : Thread nD τ).loc main_arg1) := V_main_arg1 m c
theorem Sc_eq (c : Dev nD) : Sc m c = m ((c : Thread nD τ).loc main_arg2) := V_main_arg2 m c
theorem Zp_eq (c : Dev nD) : Zp m c = m ((c : Thread nD τ).loc main_arg3) := V_main_arg3 m c
theorem Am_eq (c : Dev nD) : Am m c = m ((c : Thread nD τ).loc main_arg4) := V_main_arg4 m c
theorem Bm_eq (c : Dev nD) : Bm m c = m ((c : Thread nD τ).loc main_arg5) := V_main_arg5 m c

end Cert.KernelIdeal.Blocks

end
-- ==== Proof.Payload.lean ====
/-
  The arithmetic of one grid step of the kernel body, as pure functions of the blocks it loads, and those
  functions read at one index over the extended reals.

  A step at reduction position k loads an x tile [1024, 1024], a tile of integer codes [512, 1024], the 16 columns
  of the scales and zero points [512, 16] that belong to this tile's 16 quantisation groups, and a tile of A
  [16, 1024]. It adds to the running [1024, 512] sum the product of the x tile with the dequantised codes
  (`tileProd`), and to the running [1024, 16] sum the product of the x tile with the A tile (`tileProdA`).
  The last step combines: running sum + (1/16) * (running low-rank sum times the B tile) + the bias row.
-/
import proofs.«165903_j31705448579867_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

variable {F : FTy → Type} [FloatOps F]

/-- One step's contribution to the main product: the x tile times the dequantised weight tile,
    `Σ_j x[r, j] * ((q[c, j] - zeros[c, j / 64]) * scales[c, j / 64])`, into a zero accumulator. -/
def tileProd (v3 : Vec F S1024x1024 .f32) (v5 : Vec F S512x1024 .i32) (v9 v11 : Vec F S512x16 .f32) :
    FVec F S1024x512 .f32 :=
  matmul dot_S1024x1024_S512x1024_S1024x512_1_1_0_0_n_n none
    (truncf .bf16 (k0_pay5 v3) bitsLt_bf16_f32)
    (truncf .bf16
      (shapeCast S512x1024
        (mulf
          (subf (shapeCast S512x16x64 (sitofp .f32 v5) shapeCasts_S512x1024_S512x16x64)
            (broadcastTo S512x16x64 (shapeCast S512x16x1 v11 shapeCasts_S512x16_S512x16x1) broadcasts_S512x16x1_S512x16x64))
          (broadcastTo S512x16x64 (shapeCast S512x16x1 v9 shapeCasts_S512x16_S512x16x1) broadcasts_S512x16x1_S512x16x64))
        shapeCasts_S512x16x64_S512x1024)
      bitsLt_bf16_f32)
    (constant S1024x512 .f32 0x00000000#32)

/-- One step's contribution to the low-rank product: the x tile times the A tile, `Σ_j x[r, j] * A[ρ, j]`. -/
def tileProdA (v3 : Vec F S1024x1024 .f32) (v29 : Vec F S16x1024 .f32) : FVec F S1024x16 .f32 :=
  matmul dot_S1024x1024_S16x1024_S1024x16_1_1_0_0_n_n none (k0_pay5 v3) v29 (constant S1024x16 .f32 0x00000000#32)

/-- The zero block a reduction's first step stores into the [1024, 512] running sum. -/
abbrev zeroY : FVec F S1024x512 .f32 := broadcast S1024x512 (Scalar.ofBits .f32 0x00000000#32)
/-- The zero block a reduction's first step stores into the [1024, 16] running sum. -/
abbrev zeroA : FVec F S1024x16 .f32 := broadcast S1024x16 (Scalar.ofBits .f32 0x00000000#32)

/-- What a step stores into the [1024, 512] running sum: what it held plus the step's product. -/
theorem pay6_eq (v3 : Vec F S1024x1024 .f32) (v5 : Vec F S512x1024 .i32) (v9 v11 : Vec F S512x16 .f32)
    (v24 : Vec F S1024x512 .f32) : k0_pay6 v3 v5 v9 v11 v24 = addf v24 (tileProd v3 v5 v9 v11) := by
  unfold k0_pay6 tileProd
  exact shapeCast_self _ _

/-- What a step computes for the [1024, 16] running sum: what it held plus the step's low-rank product. -/
theorem pay7_eq (v3 : Vec F S1024x1024 .f32) (v29 : Vec F S16x1024 .f32) (v31 : Vec F S1024x16 .f32) :
    k0_pay7 v3 v29 v31 = addf v31 (tileProdA v3 v29) := rfl

/-- That value is stored as it is. -/
theorem pay1_eq (v32 : FVec F S1024x16 .f32) : k0_pay1 v32 = v32 := by
  unfold k0_pay1
  exact shapeCast_self _ _

/-- The two resets store zero blocks. -/
theorem pay3_eq : k0_pay3 (F := F) = zeroY := by
  unfold k0_pay3
  exact shapeCast_self _ _
theorem pay4_eq : k0_pay4 (F := F) = zeroA := by
  unfold k0_pay4
  exact shapeCast_self _ _

/-! ## Read at an index, over the extended reals -/

/-! ### The three contractions: each operand's index at an output index and a contraction position, and the product
    into a zero accumulator as a sum over the contracted axis -/

theorem lhsW_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhsW_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhsW_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhsW_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- A [1024, 1024] block times a [512, 1024] block, both contracted along their second axis, into zero: at (r, c) the sum over j of x[r, j] * y[c, j]. -/
theorem dotW_apply {φ₁ φ₂ : FTy} (x : FVec Ideal S1024x1024 φ₁) (y : FVec Ideal S512x1024 φ₂) (r : Fin 1024) (c : Fin 512) :
    matmul (F := Ideal) dot_S1024x1024_S512x1024_S1024x512_1_1_0_0_n_n none x y (constant S1024x512 .f32 0x00000000#32) (ix2 r c)
      = ∑ j : Fin 1024, x (ix2 r j) * y (ix2 c j) := by
  show FloatOps.matmul dot_S1024x1024_S512x1024_S1024x512_1_1_0_0_n_n none x y (constant S1024x512 .f32 0x00000000#32) (ix2 r c) = _
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r c) ((contrEquiv1 dot_S1024x1024_S512x1024_S1024x512_1_1_0_0_n_n 1024 rfl rfl).symm k) = ix2 r k := funext fun a => Fin.ext (by
    match a with
    | ⟨0, _⟩ => exact lhsW_0 _ _
    | ⟨1, _⟩ => exact (lhsW_1 _ _).trans hk)
  have er : dot_S1024x1024_S512x1024_S1024x512_1_1_0_0_n_n.rhsIdx (ix2 r c) ((contrEquiv1 dot_S1024x1024_S512x1024_S1024x512_1_1_0_0_n_n 1024 rfl rfl).symm k) = ix2 c k := funext fun a => Fin.ext (by
    match a with
    | ⟨0, _⟩ => exact rhsW_0 _ _
    | ⟨1, _⟩ => exact (rhsW_1 _ _).trans hk)
  rw [el, er]

theorem lhsA_0 (i : S1024x16.Idx) (q : dot_S1024x1024_S16x1024_S1024x16_1_1_0_0_n_n.contr.Idx) :
    (dot_S1024x1024_S16x1024_S1024x16_1_1_0_0_n_n.lhsIdx i q 0).val = (i 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
theorem lhsA_1 (i : S1024x16.Idx) (q : dot_S1024x1024_S16x1024_S1024x16_1_1_0_0_n_n.contr.Idx) :
    (dot_S1024x1024_S16x1024_S1024x16_1_1_0_0_n_n.lhsIdx i q 1).val = (q ⟨0, by decide⟩).val :=
  dot_S1024x1024_S16x1024_S1024x16_1_1_0_0_n_n.lhsIdx_val_of_single rfl i q
theorem rhsA_0 (i : S1024x16.Idx) (q : dot_S1024x1024_S16x1024_S1024x16_1_1_0_0_n_n.contr.Idx) :
    (dot_S1024x1024_S16x1024_S1024x16_1_1_0_0_n_n.rhsIdx i q 0).val = (i 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
theorem rhsA_1 (i : S1024x16.Idx) (q : dot_S1024x1024_S16x1024_S1024x16_1_1_0_0_n_n.contr.Idx) :
    (dot_S1024x1024_S16x1024_S1024x16_1_1_0_0_n_n.rhsIdx i q 1).val = (q ⟨0, by decide⟩).val :=
  dot_S1024x1024_S16x1024_S1024x16_1_1_0_0_n_n.rhsIdx_val_of_single rfl i q

/-- A [1024, 1024] block times a [16, 1024] block, both contracted along their second axis, into zero: at (r, ρ) the sum over j of x[r, j] * y[ρ, j]. -/
theorem dotA_apply {φ₁ φ₂ : FTy} (x : FVec Ideal S1024x1024 φ₁) (y : FVec Ideal S16x1024 φ₂) (r : Fin 1024) (c : Fin 16) :
    matmul (F := Ideal) dot_S1024x1024_S16x1024_S1024x16_1_1_0_0_n_n none x y (constant S1024x16 .f32 0x00000000#32) (ix2 r c)
      = ∑ j : Fin 1024, x (ix2 r j) * y (ix2 c j) := by
  show FloatOps.matmul dot_S1024x1024_S16x1024_S1024x16_1_1_0_0_n_n none x y (constant S1024x16 .f32 0x00000000#32) (ix2 r c) = _
  rw [Ideal.matmul_constant_zero_apply, ← Equiv.sum_comp (contrEquiv1 dot_S1024x1024_S16x1024_S1024x16_1_1_0_0_n_n 1024 rfl rfl).symm]
  refine Finset.sum_congr rfl fun k _ => ?_
  have hk := contrEquiv1_symm_val dot_S1024x1024_S16x1024_S1024x16_1_1_0_0_n_n 1024 rfl rfl k
  have el : dot_S1024x1024_S16x1024_S1024x16_1_1_0_0_n_n.lhsIdx (ix2 r c) ((contrEquiv1 dot_S1024x1024_S16x1024_S1024x16_1_1_0_0_n_n 1024 rfl rfl).symm k) = ix2 r k := funext fun a => Fin.ext (by
    match a with
    | ⟨0, _⟩ => exact lhsA_0 _ _
    | ⟨1, _⟩ => exact (lhsA_1 _ _).trans hk)
  have er : dot_S1024x1024_S16x1024_S1024x16_1_1_0_0_n_n.rhsIdx (ix2 r c) ((contrEquiv1 dot_S1024x1024_S16x1024_S1024x16_1_1_0_0_n_n 1024 rfl rfl).symm k) = ix2 c k := funext fun a => Fin.ext (by
    match a with
    | ⟨0, _⟩ => exact rhsA_0 _ _
    | ⟨1, _⟩ => exact (rhsA_1 _ _).trans hk)
  rw [el, er]

theorem lhsB_0 (i : S1024x512.Idx) (q : dot_S1024x16_S512x16_S1024x512_1_1_0_0_n_n.contr.Idx) :
    (dot_S1024x16_S512x16_S1024x512_1_1_0_0_n_n.lhsIdx i q 0).val = (i 0).val := by
  unfold DotDims.lhsIdx
  rw [dif_neg (show ¬(0 : Fin S1024x16.rank) ∈ dot_S1024x16_S512x16_S1024x512_1_1_0_0_n_n.lhsBatch by decide), dif_pos (show (0 : Fin S1024x16.rank) ∈ dot_S1024x16_S512x16_S1024x512_1_1_0_0_n_n.lhsNonContracting by decide)]
  rfl
theorem lhsB_1 (i : S1024x512.Idx) (q : dot_S1024x16_S512x16_S1024x512_1_1_0_0_n_n.contr.Idx) :
    (dot_S1024x16_S512x16_S1024x512_1_1_0_0_n_n.lhsIdx i q 1).val = (q ⟨0, by decide⟩).val :=
  dot_S1024x16_S512x16_S1024x512_1_1_0_0_n_n.lhsIdx_val_of_single rfl i q
theorem rhsB_0 (i : S1024x512.Idx) (q : dot_S1024x16_S512x16_S1024x512_1_1_0_0_n_n.contr.Idx) :
    (dot_S1024x16_S512x16_S1024x512_1_1_0_0_n_n.rhsIdx i q 0).val = (i 1).val := by
  unfold DotDims.rhsIdx
  rw [dif_neg (show ¬(0 : Fin S512x16.rank) ∈ dot_S1024x16_S512x16_S1024x512_1_1_0_0_n_n.rhsBatch by decide), dif_pos (show (0 : Fin S512x16.rank) ∈ dot_S1024x16_S512x16_S1024x512_1_1_0_0_n_n.rhsNonContracting by decide)]
  rfl
theorem rhsB_1 (i : S1024x512.Idx) (q : dot_S1024x16_S512x16_S1024x512_1_1_0_0_n_n.contr.Idx) :
    (dot_S1024x16_S512x16_S1024x512_1_1_0_0_n_n.rhsIdx i q 1).val = (q ⟨0, by decide⟩).val :=
  dot_S1024x16_S512x16_S1024x512_1_1_0_0_n_n.rhsIdx_val_of_single rfl i q

/-- A [1024, 16] block times a [512, 16] block, both contracted along their second axis, into zero: at (r, c) the sum over ρ of x[r, ρ] * y[c, ρ]. -/
theorem dotB_apply {φ₁ φ₂ : FTy} (x : FVec Ideal S1024x16 φ₁) (y : FVec Ideal S512x16 φ₂) (r : Fin 1024) (c : Fin 512) :
    matmul (F := Ideal) dot_S1024x16_S512x16_S1024x512_1_1_0_0_n_n none x y (constant S1024x512 .f32 0x00000000#32) (ix2 r c)
      = ∑ j : Fin 16, x (ix2 r j) * y (ix2 c j) := by
  show FloatOps.matmul dot_S1024x16_S512x16_S1024x512_1_1_0_0_n_n none x y (constant S1024x512 .f32 0x00000000#32) (ix2 r c) = _
  rw [Ideal.matmul_constant_zero_apply, ← Equiv.sum_comp (contrEquiv1 dot_S1024x16_S512x16_S1024x512_1_1_0_0_n_n 16 rfl rfl).symm]
  refine Finset.sum_congr rfl fun k _ => ?_
  have hk := contrEquiv1_symm_val dot_S1024x16_S512x16_S1024x512_1_1_0_0_n_n 16 rfl rfl k
  have el : dot_S1024x16_S512x16_S1024x512_1_1_0_0_n_n.lhsIdx (ix2 r c) ((contrEquiv1 dot_S1024x16_S512x16_S1024x512_1_1_0_0_n_n 16 rfl rfl).symm k) = ix2 r k := funext fun a => Fin.ext (by
    match a with
    | ⟨0, _⟩ => exact lhsB_0 _ _
    | ⟨1, _⟩ => exact (lhsB_1 _ _).trans hk)
  have er : dot_S1024x16_S512x16_S1024x512_1_1_0_0_n_n.rhsIdx (ix2 r c) ((contrEquiv1 dot_S1024x16_S512x16_S1024x512_1_1_0_0_n_n 16 rfl rfl).symm k) = ix2 c k := funext fun a => Fin.ext (by
    match a with
    | ⟨0, _⟩ => exact rhsB_0 _ _
    | ⟨1, _⟩ => exact (rhsB_1 _ _).trans hk)
  rw [el, er]

/-- The x tile passes through a cast to its own shape. -/
theorem pay5_eq (v3 : Vec F S1024x1024 .f32) : k0_pay5 v3 = v3 := by
  unfold k0_pay5
  exact shapeCast_self _ _

/-! ### The layout steps of the dequantised weight tile, each read at an index -/

/-- A [512, 16, 64] block laid out as [512, 1024]: column j holds group j / 64, lane j % 64. -/
theorem ungroup_apply {α : Type} (w : S512x16x64.Idx → α) (c : Fin 512) (j : Fin 1024) :
    shapeCast S512x1024 w shapeCasts_S512x16x64_S512x1024 (ix2 c j)
      = w (ix3 c (⟨j.val / 64, by have := j.isLt; omega⟩ : Fin 16) (⟨j.val % 64, Nat.mod_lt _ (by decide)⟩ : Fin 64)) := by
  refine shapeCast_apply w shapeCasts_S512x16x64_S512x1024 (ix2 c j) _ ?_
  rewrite [Shape.rowMajor_val_three, Shape.rowMajor_val_two]
  show (c.val * 16 + j.val / 64) * 64 + j.val % 64 = c.val * 1024 + j.val
  omega

/-- A [512, 1024] block laid out as [512, 16, 64]: group j / 64, lane j % 64 of row c is column j of row c. -/
theorem group_apply {α : Type} (u : S512x1024.Idx → α) (c : Fin 512) (j : Fin 1024) :
    shapeCast S512x16x64 u shapeCasts_S512x1024_S512x16x64
        (ix3 c (⟨j.val / 64, by have := j.isLt; omega⟩ : Fin 16) (⟨j.val % 64, Nat.mod_lt _ (by decide)⟩ : Fin 64))
      = u (ix2 c j) := by
  refine shapeCast_apply u shapeCasts_S512x1024_S512x16x64 _ (ix2 c j) ?_
  rewrite [Shape.rowMajor_val_three, Shape.rowMajor_val_two]
  show c.val * 1024 + j.val = (c.val * 16 + j.val / 64) * 64 + j.val % 64
  omega

/-- A [512, 16] block of per-group values given a unit last axis and repeated along it 64 times: every lane of
    group g of row c reads the value of (c, g). -/
theorem perGroup_apply {α : Type} (s : S512x16.Idx → α) (c : Fin 512) (g : Fin 16) (l : Fin 64) :
    broadcastTo S512x16x64 (shapeCast S512x16x1 s shapeCasts_S512x16_S512x16x1) broadcasts_S512x16x1_S512x16x64 (ix3 c g l)
      = s (ix2 c g) := by
  refine (broadcastTo_apply _ broadcasts_S512x16x1_S512x16x64 (ix3 c g l) (ix3 c g (0 : Fin 1)) fun a => ?_).trans ?_
  · match a with
    | ⟨0, _⟩ => show c.val = if (512 : ℕ) = 1 then 0 else c.val; rw [if_neg (by decide)]
    | ⟨1, _⟩ => show g.val = if (16 : ℕ) = 1 then 0 else g.val; rw [if_neg (by decide)]
    | ⟨2, _⟩ => show 0 = if (1 : ℕ) = 1 then 0 else l.val; rw [if_pos rfl]
  · refine shapeCast_apply s shapeCasts_S512x16_S512x16x1 _ (ix2 c g) ?_
    rewrite [Shape.rowMajor_val_two, Shape.rowMajor_val_three]
    show c.val * 16 + g.val = (c.val * 16 + g.val) * 1 + 0
    omega

/-- The step's main product at (r, c): the sum over the tile's 1024 features of x times the dequantised code,
    the code's group within the tile being `j / 64`. -/
theorem tileProd_apply (v3 : Vec Ideal S1024x1024 .f32) (v5 : Vec Ideal S512x1024 .i32) (v9 v11 : Vec Ideal S512x16 .f32)
    (r : Fin 1024) (c : Fin 512) :
    tileProd (F := Ideal) v3 v5 v9 v11 (ix2 r c)
      = ∑ j : Fin 1024, v3 (ix2 r j)
          * (((((v5 (ix2 c j)).toInt : ℝ) : EReal) - v11 (ix2 c ⟨j.val / 64, by have := j.isLt; omega⟩))
              * v9 (ix2 c ⟨j.val / 64, by have := j.isLt; omega⟩)) := by
  unfold tileProd
  refine (dotW_apply _ _ r c).trans ?_
  refine Finset.sum_congr rfl fun j _ => ?_
  rw [truncf_apply, truncf_apply, pay5_eq, ungroup_apply, mulf_apply, subf_apply, group_apply, perGroup_apply, perGroup_apply,
    sitofp_apply]
  rfl

/-- The step's low-rank product at (r, ρ). -/
theorem tileProdA_apply (v3 : Vec Ideal S1024x1024 .f32) (v29 : Vec Ideal S16x1024 .f32) (r : Fin 1024) (ρ : Fin 16) :
    tileProdA (F := Ideal) v3 v29 (ix2 r ρ) = ∑ j : Fin 1024, v3 (ix2 r j) * v29 (ix2 ρ j) := by
  unfold tileProdA
  refine (dotA_apply (k0_pay5 v3) v29 r ρ).trans ?_
  refine Finset.sum_congr rfl fun j _ => ?_
  rw [pay5_eq]

/-- The last step's result at (r, c): the running sum, plus 1/16 (the f32 word `0x3D800000`) times the running
    low-rank sum contracted with the B tile over the rank, plus the bias of column c. -/
theorem pay2_apply (v39 : Vec Ideal S512x16 .f32) (v40 : Vec Ideal S1024x16 .f32) (v42 : Vec Ideal S1x512 .f32)
    (v44 : Vec Ideal S1024x512 .f32) (r : Fin 1024) (c : Fin 512) :
    k0_pay2 (F := Ideal) v39 v40 v42 v44 (ix2 r c)
      = (v44 (ix2 r c) + Ideal.ofBits .f32 0x3D800000#32 * ∑ ρ : Fin 16, v40 (ix2 r ρ) * v39 (ix2 c ρ))
        + v42 (ix2 (0 : Fin 1) c) := by
  unfold k0_pay2
  rw [addf_apply, addf_apply, mulf_apply, broadcast_apply, dotB_apply, shapeCast_self]
  exact congrArg _ (broadcastTo_1b_ab_apply v42 broadcasts_S1x512_S1024x512 r c)

end Cert.KernelIdeal.Pay

end
-- ==== Proof.Spec.lean ====
/-
  The fused layer as ONE function of its seven arguments, over the extended reals, and the only law the
  proof needs about it.

  With `x` of shape [4, 2048, 4096], integer codes `q` [4096, 4096], per-group `scales` and `zeros` [4096, 64]
  (a group is 64 consecutive input features), the low-rank pair `A` [16, 4096], `B` [4096, 16] and `bias` [4096]:

      W[o, i]      = (q[o, i] - zeros[o, i / 64]) * scales[o, i / 64]
      out[b, t, o] = (Σ_i x[b, t, i] * W[o, i]  +  (1/16) * Σ_r (Σ_i x[b, t, i] * A[r, i]) * B[o, r])  +  bias[o]

  the factor 1/16 kept as the f32 word both programs print. The kernel reaches each contraction over the 4096
  input features as four partial sums over 1024 consecutive features, added in order onto a zero; addition of
  extended reals is associative and commutative, so the four partial sums regroup into the whole one (`sum_tiles`,
  `chain_tiles`), and nothing here asks the inputs to be finite.
-/
import Idealize.ShloMosaic.PureOps.Ideal
import Idealize.ShloMosaic.PureOps.Ideal.Laws
import Idealize.ShloMosaic.Lib.ValueIdx

noncomputable section

namespace Cert.QLora

open Idealize.ShloMosaic Idealize.ShloMosaic.ValueIdx

/-- The quantisation group of input feature `i`: 64 consecutive features share one scale and one zero point. -/
def grp (i : Fin 4096) : Fin 64 := ⟨i.val / 64, by have := i.isLt; omega⟩

/-- The dequantised weight `W[o, i] = (q[o, i] - zeros[o, i / 64]) * scales[o, i / 64]`, the code read as a signed
    integer. -/
def wdq (q : (⟨2, ![4096, 4096]⟩ : Shape).Idx → BitVec 32) (s z : (⟨2, ![4096, 64]⟩ : Shape).Idx → EReal)
    (o i : Fin 4096) : EReal :=
  ((((q (ix2 o i)).toInt : ℝ) : EReal) - z (ix2 o (grp i))) * s (ix2 o (grp i))

/-- The layer's result at (b, t, o). -/
def out (x : (⟨3, ![4, 2048, 4096]⟩ : Shape).Idx → EReal) (q : (⟨2, ![4096, 4096]⟩ : Shape).Idx → BitVec 32)
    (s z : (⟨2, ![4096, 64]⟩ : Shape).Idx → EReal) (A : (⟨2, ![16, 4096]⟩ : Shape).Idx → EReal)
    (B : (⟨2, ![4096, 16]⟩ : Shape).Idx → EReal) (bias : (⟨1, ![4096]⟩ : Shape).Idx → EReal)
    (b : Fin 4) (t : Fin 2048) (o : Fin 4096) : EReal :=
  (∑ i : Fin 4096, x (ix3 b t i) * wdq q s z o i
    + Ideal.ofBits .f32 0x3D800000#32
        * ∑ r : Fin 16, (∑ i : Fin 4096, x (ix3 b t i) * A (ix2 r i)) * B (ix2 o r))
  + bias (ix1 o)

/-- A sum over the 4096 input features is the sum, over the four tiles of 1024 consecutive features, of the tiles'
    sums. -/
theorem sum_tiles {M : Type*} [AddCommMonoid M] (f : Fin 4096 → M) :
    ∑ i : Fin 4096, f i
      = ∑ kt : Fin 4, ∑ j : Fin 1024, f ⟨1024 * kt.val + j.val, by have := kt.isLt; have := j.isLt; omega⟩ := by
  rw [← Fintype.sum_prod_type']
  refine (Fintype.sum_equiv (finProdFinEquiv : Fin 4 × Fin 1024 ≃ Fin 4096) _ _ fun p => ?_).symm
  refine congrArg f (Fin.ext ?_)
  show 1024 * p.1.val + p.2.val = p.2.val + 1024 * p.1.val
  omega

/-- Four terms added in order onto a zero are their sum. -/
theorem chain_four {M : Type*} [AddCommMonoid M] (p : Fin 4 → M) :
    (((0 + p 0) + p 1) + p 2) + p 3 = ∑ kt : Fin 4, p kt := by
  rw [Fin.sum_univ_four, zero_add]

/-- So the four tiles' sums, added in order onto a zero, are the sum over all 4096 features. -/
theorem chain_tiles {M : Type*} [AddCommMonoid M] (f : Fin 4096 → M) :
    (((0 + ∑ j : Fin 1024, f ⟨1024 * 0 + j.val, by have := j.isLt; omega⟩)
        + ∑ j : Fin 1024, f ⟨1024 * 1 + j.val, by have := j.isLt; omega⟩)
        + ∑ j : Fin 1024, f ⟨1024 * 2 + j.val, by have := j.isLt; omega⟩)
        + ∑ j : Fin 1024, f ⟨1024 * 3 + j.val, by have := j.isLt; omega⟩
      = ∑ i : Fin 4096, f i := by
  rw [sum_tiles f]
  exact chain_four fun kt => ∑ j : Fin 1024, f ⟨1024 * kt.val + j.val, by have := kt.isLt; have := j.isLt; omega⟩

end Cert.QLora

end
-- ==== Proof.GroupValue.lean ====
/-
  One reduction, read at an index over the extended reals. The four steps 4q, 4q+1, 4q+2, 4q+3 of the grid
  share a row block (q / 8) and a column block (q % 8) and walk the four tiles of 1024 input features; the
  last one stores into the output block, at (r, o), the layer's function at row `1024 (q / 8) + r` of the
  flattened x and output feature `512 (q % 8) + o`: the four tile sums, added in order onto a zero, are the
  sum over all 4096 features (`Cert.QLora.chain_tiles`), for the main product and for the low-rank one alike.
-/
import proofs.«165903_j31705448579867_1_alg».proof.Proof.Steps
import proofs.«165903_j31705448579867_1_alg».proof.Proof.Blocks
import proofs.«165903_j31705448579867_1_alg».proof.Proof.Payload
import proofs.«165903_j31705448579867_1_alg».proof.Proof.Spec

set_option maxRecDepth 16384

noncomputable section

namespace Cert.KernelIdeal.Group

open Cert.KernelIdeal Cert.KernelIdeal.Gen Cert.KernelIdeal.Pieces Cert.KernelIdeal.Steps Cert.KernelIdeal.Blocks Cert.KernelIdeal.Pay
open Idealize.ShloMosaic Idealize.ShloMosaic.TcCoe Idealize.SL.Sem Idealize.ShloMosaic.ValueIdx

variable (m : (ℓ : Loc nD τ sig) → Buf (Elt Ideal) ℓ)

/-- Indices with equal coordinates are equal. -/
theorem ix1_congr {n0 : ℕ} {a a' : Fin n0} (ha : a.val = a'.val) : ix1 a = ix1 a' := by
  obtain rfl := Fin.ext ha; rfl
theorem ix2_congr {n0 n1 : ℕ} {a a' : Fin n0} {b b' : Fin n1} (ha : a.val = a'.val) (hb : b.val = b'.val) :
    ix2 a b = ix2 a' b' := by
  obtain rfl := Fin.ext ha; obtain rfl := Fin.ext hb; rfl
theorem ix3_congr {n0 n1 n2 : ℕ} {a a' : Fin n0} {b b' : Fin n1} {d d' : Fin n2} (ha : a.val = a'.val)
    (hb : b.val = b'.val) (hd : d.val = d'.val) : ix3 a b d = ix3 a' b' d' := by
  obtain rfl := Fin.ext ha; obtain rfl := Fin.ext hb; obtain rfl := Fin.ext hd; rfl

/-- A step's [1024, 512] running sum read at (r, o): what it held there plus the sum, over the step's tile of 1024 input
    features `1024 k ..` (k the step's reduction position), of x times the dequantised weight, at the row
    `1024 (t / 32) + r` of the flattened x — batch `bI`, position `tI` — and the output feature `oI = 512 (t / 4 % 8) + o`;
    the tile's group `16 k + j / 64` is the group `(1024 k + j) / 64` of the feature. -/
theorem stepY_read (c : Dev nD) (t : Fin cfg0.N) (acc : Vec Ideal S1024x512 .f32) (r : Fin 1024) (o : Fin 512)
    (x : (⟨3, ![4, 2048, 4096]⟩ : Shape).Idx → EReal) (hx : x = m ((c : Thread nD τ).loc main_arg0))
    (bI : Fin 4) (tI : Fin 2048) (oI : Fin 4096) (k : ℕ) (hk4 : k < 4)
    (hb : bI.val = (1024 * (t.val / 32) + r.val) / 2048) (ht : tI.val = (1024 * (t.val / 32) + r.val) % 2048)
    (ho : oI.val = 512 * (t.val / 4 % 8) + o.val) (hk : t.val % 4 = k) :
    stepY m c t acc (ix2 r o)
      = acc (ix2 r o) + ∑ j : Fin 1024,
          x (ix3 bI tI (⟨1024 * k + j.val, by have := j.isLt; omega⟩ : Fin 4096))
            * Cert.QLora.wdq (m ((c : Thread nD τ).loc main_arg1)) (m ((c : Thread nD τ).loc main_arg2))
                (m ((c : Thread nD τ).loc main_arg3)) oI ⟨1024 * k + j.val, by have := j.isLt; omega⟩ := by
  subst hx
  unfold stepY
  rw [pay6_eq]
  refine (addf_apply _ _ _).trans ?_
  refine congrArg (acc (ix2 r o) + ·) ?_
  refine (tileProd_apply _ _ _ _ r o).trans ?_
  refine Finset.sum_congr rfl fun j _ => ?_
  rw [bx_apply, bq_apply, bs_apply, bz_apply, X2_apply, Qw_eq, Sc_eq, Zp_eq]
  unfold Cert.QLora.wdq Cert.QLora.grp
  refine congrArg₂ (· * ·) (congrArg _ (ix3_congr ?_ ?_ ?_))
    (congrArg₂ (· * ·)
      (congrArg₂ (· - ·) (congrArg _ (congrArg _ (congrArg _ (congrArg _ (ix2_congr ?_ ?_))))) (congrArg _ (ix2_congr ?_ ?_)))
      (congrArg _ (ix2_congr ?_ ?_)))
  all_goals (dsimp only; omega)

/-- A step's [1024, 16] running sum read at (r, ρ): what it held there plus the sum over the same tile of x times A[ρ, ·]. -/
theorem stepA_read (c : Dev nD) (t : Fin cfg0.N) (acc : Vec Ideal S1024x16 .f32) (r : Fin 1024) (ρ : Fin 16)
    (x : (⟨3, ![4, 2048, 4096]⟩ : Shape).Idx → EReal) (hx : x = m ((c : Thread nD τ).loc main_arg0))
    (A : (⟨2, ![16, 4096]⟩ : Shape).Idx → EReal) (hA : A = m ((c : Thread nD τ).loc main_arg4))
    (bI : Fin 4) (tI : Fin 2048) (k : ℕ) (hk4 : k < 4)
    (hb : bI.val = (1024 * (t.val / 32) + r.val) / 2048) (ht : tI.val = (1024 * (t.val / 32) + r.val) % 2048)
    (hk : t.val % 4 = k) :
    stepA m c t acc (ix2 r ρ)
      = acc (ix2 r ρ) + ∑ j : Fin 1024,
          x (ix3 bI tI (⟨1024 * k + j.val, by have := j.isLt; omega⟩ : Fin 4096))
            * A (ix2 ρ (⟨1024 * k + j.val, by have := j.isLt; omega⟩ : Fin 4096)) := by
  subst hx
  subst hA
  unfold stepA
  rw [pay1_eq, pay7_eq]
  refine (addf_apply _ _ _).trans ?_
  refine congrArg (acc (ix2 r ρ) + ·) ?_
  refine (tileProdA_apply _ _ r ρ).trans ?_
  refine Finset.sum_congr rfl fun j _ => ?_
  rw [bx_apply, bA_apply, X2_apply, Am_eq]
  refine congrArg₂ (· * ·) (congrArg _ (ix3_congr ?_ ?_ ?_)) (congrArg _ (ix2_congr rfl ?_))
  all_goals (dsimp only; omega)

/-- The last step's combination read at (r, o): the main sum, plus 1/16 times the low-rank sum contracted with row `oI`
    of B over the rank, plus the bias of output feature `oI = 512 (t / 4 % 8) + o`. -/
theorem combine_read (c : Dev nD) (t : Fin cfg0.N) (y : Vec Ideal S1024x512 .f32) (a : Vec Ideal S1024x16 .f32)
    (r : Fin 1024) (o : Fin 512)
    (B : (⟨2, ![4096, 16]⟩ : Shape).Idx → EReal) (hB : B = m ((c : Thread nD τ).loc main_arg5))
    (bias : (⟨1, ![4096]⟩ : Shape).Idx → EReal) (hbias : bias = m ((c : Thread nD τ).loc main_arg6))
    (oI : Fin 4096) (ho : oI.val = 512 * (t.val / 4 % 8) + o.val) :
    combine m c t y a (ix2 r o)
      = (y (ix2 r o) + Ideal.ofBits .f32 0x3D800000#32 * ∑ ρ : Fin 16, a (ix2 r ρ) * B (ix2 oI ρ)) + bias (ix1 oI) := by
  subst hB
  subst hbias
  unfold combine
  refine (pay2_apply _ _ _ _ r o).trans ?_
  rw [bb_apply, B2_apply]
  refine congrArg₂ (· + ·)
    (congrArg (y (ix2 r o) + ·) (congrArg (Ideal.ofBits .f32 0x3D800000#32 * ·) (Finset.sum_congr rfl fun ρ _ => ?_)))
    (congrArg _ (ix1_congr ?_))
  · rw [bB_apply, Bm_eq]
    exact congrArg (a (ix2 r ρ) * ·) (congrArg _ (ix2_congr (by dsimp only; omega) rfl))
  · dsimp only; omega

/-- The zero blocks read 0 everywhere. -/
theorem zeroY_read (r : Fin 1024) (o : Fin 512) : k0_pay3 (F := Ideal) (ix2 r o) = 0 := by
  rw [pay3_eq]
  exact Ideal.ofBits_zero_f32

theorem zeroA_read (r : Fin 1024) (ρ : Fin 16) : k0_pay4 (F := Ideal) (ix2 r ρ) = 0 := by
  rw [pay4_eq]
  exact Ideal.ofBits_zero_f32

/-- The four tiles' sums of the main product's terms, added in order onto a zero, are the sum over all 4096 features. -/
theorem main_chain (x : (⟨3, ![4, 2048, 4096]⟩ : Shape).Idx → EReal) (codes : (⟨2, ![4096, 4096]⟩ : Shape).Idx → BitVec 32)
    (s z : (⟨2, ![4096, 64]⟩ : Shape).Idx → EReal) (bI : Fin 4) (tI : Fin 2048) (oI : Fin 4096) :
    (((0 + ∑ j : Fin 1024, x (ix3 bI tI (⟨1024 * 0 + j.val, by have := j.isLt; omega⟩ : Fin 4096)) * Cert.QLora.wdq codes s z oI ⟨1024 * 0 + j.val, by have := j.isLt; omega⟩)
        + ∑ j : Fin 1024, x (ix3 bI tI (⟨1024 * 1 + j.val, by have := j.isLt; omega⟩ : Fin 4096)) * Cert.QLora.wdq codes s z oI ⟨1024 * 1 + j.val, by have := j.isLt; omega⟩)
        + ∑ j : Fin 1024, x (ix3 bI tI (⟨1024 * 2 + j.val, by have := j.isLt; omega⟩ : Fin 4096)) * Cert.QLora.wdq codes s z oI ⟨1024 * 2 + j.val, by have := j.isLt; omega⟩)
        + ∑ j : Fin 1024, x (ix3 bI tI (⟨1024 * 3 + j.val, by have := j.isLt; omega⟩ : Fin 4096)) * Cert.QLora.wdq codes s z oI ⟨1024 * 3 + j.val, by have := j.isLt; omega⟩
      = ∑ i : Fin 4096, x (ix3 bI tI i) * Cert.QLora.wdq codes s z oI i :=
  Cert.QLora.chain_tiles fun i : Fin 4096 => x (ix3 bI tI i) * Cert.QLora.wdq codes s z oI i

/-- The same for the low-rank product's terms. -/
theorem low_chain (x : (⟨3, ![4, 2048, 4096]⟩ : Shape).Idx → EReal) (A : (⟨2, ![16, 4096]⟩ : Shape).Idx → EReal)
    (bI : Fin 4) (tI : Fin 2048) (ρ : Fin 16) :
    (((0 + ∑ j : Fin 1024, x (ix3 bI tI (⟨1024 * 0 + j.val, by have := j.isLt; omega⟩ : Fin 4096)) * A (ix2 ρ (⟨1024 * 0 + j.val, by have := j.isLt; omega⟩ : Fin 4096)))
        + ∑ j : Fin 1024, x (ix3 bI tI (⟨1024 * 1 + j.val, by have := j.isLt; omega⟩ : Fin 4096)) * A (ix2 ρ (⟨1024 * 1 + j.val, by have := j.isLt; omega⟩ : Fin 4096)))
        + ∑ j : Fin 1024, x (ix3 bI tI (⟨1024 * 2 + j.val, by have := j.isLt; omega⟩ : Fin 4096)) * A (ix2 ρ (⟨1024 * 2 + j.val, by have := j.isLt; omega⟩ : Fin 4096)))
        + ∑ j : Fin 1024, x (ix3 bI tI (⟨1024 * 3 + j.val, by have := j.isLt; omega⟩ : Fin 4096)) * A (ix2 ρ (⟨1024 * 3 + j.val, by have := j.isLt; omega⟩ : Fin 4096))
      = ∑ i : Fin 4096, x (ix3 bI tI i) * A (ix2 ρ i) :=
  Cert.QLora.chain_tiles fun i : Fin 4096 => x (ix3 bI tI i) * A (ix2 ρ i)

/-- What the last step of reduction `q` stores into the output block, as the two sums built over the reduction's
    four steps from zero blocks, combined (any values). -/
theorem last_out_unrolled {F : FTy → Type} [FloatOps F] (m : (ℓ : Loc nD τ sig) → Buf (Elt F) ℓ) (c : Dev nD) (q : ℕ) (hq : q < 64) :
    (outsAt0 m c (4 * q + 3) (by have hN : cfg0.N = 256 := N_0; omega)).1
      = combine m c ⟨4 * q + 3, by have hN : cfg0.N = 256 := N_0; omega⟩
          (stepY m c ⟨4 * q + 3, by have hN : cfg0.N = 256 := N_0; omega⟩ (stepY m c ⟨4 * q + 2, by have hN : cfg0.N = 256 := N_0; omega⟩ (stepY m c ⟨4 * q + 1, by have hN : cfg0.N = 256 := N_0; omega⟩ (stepY m c ⟨4 * q + 0, by have hN : cfg0.N = 256 := N_0; omega⟩ (k0_pay3 (F := F))))))
          (stepA m c ⟨4 * q + 3, by have hN : cfg0.N = 256 := N_0; omega⟩ (stepA m c ⟨4 * q + 2, by have hN : cfg0.N = 256 := N_0; omega⟩ (stepA m c ⟨4 * q + 1, by have hN : cfg0.N = 256 := N_0; omega⟩ (stepA m c ⟨4 * q + 0, by have hN : cfg0.N = 256 := N_0; omega⟩ (k0_pay4 (F := F)))))) := by
  have hN : cfg0.N = 256 := N_0
  have e3 := out_last m c (⟨4 * q + 3, by omega⟩ : Fin cfg0.N) (by show ¬ (4 * q + 3) % 4 = 0; omega) (by show (4 * q + 3) % 4 = 3; omega)
  have e2 := sums_middle m c (⟨4 * q + 2, by omega⟩ : Fin cfg0.N) (by show ¬ (4 * q + 2) % 4 = 0; omega) (by show ¬ (4 * q + 2) % 4 = 3; omega)
  have e1 := sums_middle m c (⟨4 * q + 1, by omega⟩ : Fin cfg0.N) (by show ¬ (4 * q + 1) % 4 = 0; omega) (by show ¬ (4 * q + 1) % 4 = 3; omega)
  have e0 := sums_first m c (⟨4 * q + 0, by omega⟩ : Fin cfg0.N) (by show (4 * q + 0) % 4 = 0; omega) (by show ¬ (4 * q + 0) % 4 = 3; omega)
  have p3Y : prevY m c (⟨4 * q + 3, by omega⟩ : Fin cfg0.N) = stepY m c ⟨4 * q + 2, by omega⟩ (prevY m c ⟨4 * q + 2, by omega⟩) := congrArg Prod.fst e2
  have p3A : prevA m c (⟨4 * q + 3, by omega⟩ : Fin cfg0.N) = stepA m c ⟨4 * q + 2, by omega⟩ (prevA m c ⟨4 * q + 2, by omega⟩) := congrArg Prod.snd e2
  have p2Y : prevY m c (⟨4 * q + 2, by omega⟩ : Fin cfg0.N) = stepY m c ⟨4 * q + 1, by omega⟩ (prevY m c ⟨4 * q + 1, by omega⟩) := congrArg Prod.fst e1
  have p2A : prevA m c (⟨4 * q + 2, by omega⟩ : Fin cfg0.N) = stepA m c ⟨4 * q + 1, by omega⟩ (prevA m c ⟨4 * q + 1, by omega⟩) := congrArg Prod.snd e1
  have p1Y : prevY m c (⟨4 * q + 1, by omega⟩ : Fin cfg0.N) = stepY m c ⟨4 * q + 0, by omega⟩ (k0_pay3 (F := F)) := congrArg Prod.fst e0
  have p1A : prevA m c (⟨4 * q + 1, by omega⟩ : Fin cfg0.N) = stepA m c ⟨4 * q + 0, by omega⟩ (k0_pay4 (F := F)) := congrArg Prod.snd e0
  refine e3.trans ?_
  rw [p3Y, p3A, p2Y, p2A, p1Y, p1A]

/-- Read at (r, o) over the extended reals, it is the layer's function of the seven arguments at row
    `1024 (q / 8) + r` of the flattened x — batch `R / 2048`, position `R % 2048` — and output feature `512 (q % 8) + o`. -/
theorem block_value (c : Dev nD) (q : ℕ) (hq : q < 64) (r : Fin 1024) (o : Fin 512) :
    (outsAt0 m c (4 * q + 3) (by have hN : cfg0.N = 256 := N_0; omega)).1 (ix2 r o)
      = Cert.QLora.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
          ⟨(1024 * (q / 8) + r.val) / 2048, by have := r.isLt; omega⟩
          ⟨(1024 * (q / 8) + r.val) % 2048, by omega⟩
          ⟨512 * (q % 8) + o.val, by have := o.isLt; omega⟩ := by
  have hN : cfg0.N = 256 := N_0
  have hr := r.isLt
  have ho := o.isLt
  rw [last_out_unrolled m c q hq]
  refine (combine_read m c (⟨4 * q + 3, by omega⟩ : Fin cfg0.N) _ _ r o _ rfl _ rfl
    (⟨512 * (q % 8) + o.val, by omega⟩ : Fin 4096) (by dsimp only; omega)).trans ?_
  unfold Cert.QLora.out
  refine congrArg₂ (· + ·) (congrArg₂ (· + ·) ?_
    (congrArg (Ideal.ofBits .f32 0x3D800000#32 * ·) (Finset.sum_congr rfl fun ρ _ => congrArg (· * _) ?_))) rfl
  · rw [stepY_read m c (⟨4 * q + 3, by omega⟩ : Fin cfg0.N) _ r o _ rfl
        (⟨(1024 * (q / 8) + r.val) / 2048, by omega⟩ : Fin 4) (⟨(1024 * (q / 8) + r.val) % 2048, by omega⟩ : Fin 2048)
        (⟨512 * (q % 8) + o.val, by omega⟩ : Fin 4096) 3 (by omega)
        (by dsimp only; omega) (by dsimp only; omega) (by dsimp only; omega) (by dsimp only; omega),
      stepY_read m c (⟨4 * q + 2, by omega⟩ : Fin cfg0.N) _ r o _ rfl
        (⟨(1024 * (q / 8) + r.val) / 2048, by omega⟩ : Fin 4) (⟨(1024 * (q / 8) + r.val) % 2048, by omega⟩ : Fin 2048)
        (⟨512 * (q % 8) + o.val, by omega⟩ : Fin 4096) 2 (by omega)
        (by dsimp only; omega) (by dsimp only; omega) (by dsimp only; omega) (by dsimp only; omega),
      stepY_read m c (⟨4 * q + 1, by omega⟩ : Fin cfg0.N) _ r o _ rfl
        (⟨(1024 * (q / 8) + r.val) / 2048, by omega⟩ : Fin 4) (⟨(1024 * (q / 8) + r.val) % 2048, by omega⟩ : Fin 2048)
        (⟨512 * (q % 8) + o.val, by omega⟩ : Fin 4096) 1 (by omega)
        (by dsimp only; omega) (by dsimp only; omega) (by dsimp only; omega) (by dsimp only; omega),
      stepY_read m c (⟨4 * q + 0, by omega⟩ : Fin cfg0.N) _ r o _ rfl
        (⟨(1024 * (q / 8) + r.val) / 2048, by omega⟩ : Fin 4) (⟨(1024 * (q / 8) + r.val) % 2048, by omega⟩ : Fin 2048)
        (⟨512 * (q % 8) + o.val, by omega⟩ : Fin 4096) 0 (by omega)
        (by dsimp only; omega) (by dsimp only; omega) (by dsimp only; omega) (by dsimp only; omega),
      zeroY_read r o]
    exact main_chain (m ((c : Thread nD τ).loc main_arg0)) (m ((c : Thread nD τ).loc main_arg1))
      (m ((c : Thread nD τ).loc main_arg2)) (m ((c : Thread nD τ).loc main_arg3)) _ _ _
  · rw [stepA_read m c (⟨4 * q + 3, by omega⟩ : Fin cfg0.N) _ r ρ _ rfl _ rfl
        (⟨(1024 * (q / 8) + r.val) / 2048, by omega⟩ : Fin 4) (⟨(1024 * (q / 8) + r.val) % 2048, by omega⟩ : Fin 2048)
        3 (by omega) (by dsimp only; omega) (by dsimp only; omega) (by dsimp only; omega),
      stepA_read m c (⟨4 * q + 2, by omega⟩ : Fin cfg0.N) _ r ρ _ rfl _ rfl
        (⟨(1024 * (q / 8) + r.val) / 2048, by omega⟩ : Fin 4) (⟨(1024 * (q / 8) + r.val) % 2048, by omega⟩ : Fin 2048)
        2 (by omega) (by dsimp only; omega) (by dsimp only; omega) (by dsimp only; omega),
      stepA_read m c (⟨4 * q + 1, by omega⟩ : Fin cfg0.N) _ r ρ _ rfl _ rfl
        (⟨(1024 * (q / 8) + r.val) / 2048, by omega⟩ : Fin 4) (⟨(1024 * (q / 8) + r.val) % 2048, by omega⟩ : Fin 2048)
        1 (by omega) (by dsimp only; omega) (by dsimp only; omega) (by dsimp only; omega),
      stepA_read m c (⟨4 * q + 0, by omega⟩ : Fin cfg0.N) _ r ρ _ rfl _ rfl
        (⟨(1024 * (q / 8) + r.val) / 2048, by omega⟩ : Fin 4) (⟨(1024 * (q / 8) + r.val) % 2048, by omega⟩ : Fin 2048)
        0 (by omega) (by dsimp only; omega) (by dsimp only; omega) (by dsimp only; omega),
      zeroA_read r ρ]
    exact low_chain (m ((c : Thread nD τ).loc main_arg0)) (m ((c : Thread nD τ).loc main_arg4)) _ _ ρ

end Cert.KernelIdeal.Group

end
-- ==== Proof.KernelValue.lean ====
/-
  The idealized kernel's run, read: its result array ends holding the layer's function of the seven arguments.

  The pipeline writes the output block back at the last step of each reduction (the points ≡ 3 mod 4); the
  block of reduction `q` is rows `1024 (q / 8) ..`, columns `512 (q % 8) ..` of the [8192, 4096] array, and
  what is written there is the layer's function at those rows and columns (GroupValue). The 64 blocks tile the
  array, so the array ends holding that function everywhere; the host reshape after the region reads row
  `2048 b + t` of it at (b, t).
-/
import proofs.«165903_j31705448579867_1_alg».proof.Proof.GroupValue
import Idealize.ShloMosaic.Lib.Pipeline.Value
import Idealize.ShloMosaic.Lib.StableHlo.Run

set_option maxRecDepth 16384

noncomputable section

namespace Cert.KernelIdeal.Value

open Cert.KernelIdeal Cert.KernelIdeal.Gen Cert.KernelIdeal.Group
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's function with its arguments read from the launch memory. -/
abbrev layer (c : Dev nD) (b : Fin 4) (t : Fin 2048) (o : Fin 4096) : EReal :=
  Cert.QLora.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b t o

theorem layer_congr (c : Dev nD) {b b' : Fin 4} {t t' : Fin 2048} {o o' : Fin 4096}
    (hb : b.val = b'.val) (ht : t.val = t'.val) (ho : o.val = o'.val) : layer m c b t o = layer m c b' t' o' := by
  obtain rfl := Fin.ext hb; obtain rfl := Fin.ext ht; obtain rfl := Fin.ext ho; rfl

/-- The [8192, 4096] array the region writes: row `R` is batch `R / 2048`, position `R % 2048`. -/
def rows (c : Dev nD) : Buf (Elt Ideal) ((c : Thread nD τ).loc main_v2) := fun i =>
  layer m c ⟨(i 0).val / 2048, by have h : (i 0).val < 8192 := (i 0).isLt; omega⟩
    ⟨(i 0).val % 2048, by omega⟩ ⟨(i 1).val, (i 1).isLt⟩

/-- The result, [4, 2048, 4096]. -/
def result (c : Dev nD) : Buf (Elt Ideal) ((c : Thread nD τ).loc main_v3) := fun i =>
  layer m c ⟨(i 0).val, (i 0).isLt⟩ ⟨(i 1).val, (i 1).isLt⟩ ⟨(i 2).val, (i 2).isLt⟩

/-- Where the output window's block sits at point `t`. -/
theorem idx_out : ∀ t : Fin cfg0.N, win0_7.index t (0 : Fin 2) = t.val / 32 ∧ win0_7.index t (1 : Fin 2) = t.val / 4 % 8 :=
  (by decide +kernel : ∀ t : Fin grid0.N, _)

theorem outsAt0_congr (c : Dev nD) {n n' : ℕ} (h : n < cfg0.N) (h' : n' < cfg0.N) (e : n = n') :
    outsAt0 m c n h = outsAt0 m c n' h' := by subst e; rfl

/-- What a last step leaves in the output block, at (r, o): `rows` at row `1024 (t / 32) + r`, column `512 (t / 4 % 8) + o`. -/
theorem block_at (c : Dev nD) (t : Fin cfg0.N) (h3 : t.val % 4 = 3) (r : Fin 1024) (o : Fin 512) :
    (outsAt0 m c t.val t.isLt).1 (ix2 r o)
      = rows m c (ix2 ⟨1024 * (t.val / 32) + r.val, by have := t.isLt; have hN : cfg0.N = 256 := N_0; have := r.isLt; omega⟩
          ⟨512 * (t.val / 4 % 8) + o.val, by have := o.isLt; omega⟩) := by
  have hN : cfg0.N = 256 := N_0
  have hlt : t.val < 256 := lt_of_lt_of_eq t.isLt hN
  rw [outsAt0_congr m c t.isLt (by omega : 4 * (t.val / 4) + 3 < cfg0.N) (by omega : t.val = 4 * (t.val / 4) + 3)]
  rw [block_value m c (t.val / 4) (by omega) r o]
  unfold rows
  exact layer_congr m c (by show (1024 * (t.val / 4 / 8) + r.val) / 2048 = (1024 * (t.val / 32) + r.val) / 2048; omega)
    (by show (1024 * (t.val / 4 / 8) + r.val) % 2048 = (1024 * (t.val / 32) + r.val) % 2048; omega)
    (by show 512 * (t.val / 4 % 8) + o.val = 512 * (t.val / 4 % 8) + o.val; rfl)

/-- WHAT A LAST STEP WRITES BACK is its block of `rows`. -/
theorem flushed_eq (c : Dev nD) (t : Fin cfg0.N) (hf : (cfg0.win 7).flush t = true) :
    (dats m 0 c).flushed 7 t = ((cfg0.win 7).blk t).view.read (Elt Ideal) (rows m c) := by
  have hN : cfg0.N = 256 := N_0
  have hlt : t.val < 256 := lt_of_lt_of_eq t.isLt hN
  have h3 : t.val % 4 = 3 := (flush0_7 t).mp hf
  obtain ⟨e0, e1⟩ := idx_out t
  show (cfg0.win 7).cut (grid0.coords t) ((dats m 0 c).after 7 t) = _
  rw [after0_7]
  funext j
  show (outsAt0 m c t.val t.isLt).1 j = rows m c (((cfg0.win 7).blk t).view.emb j)
  have hj : (j : S1024x512.Idx) = ix2 (j 0) (j 1) := eq_ix2 j
  refine (congrArg (outsAt0 m c t.val t.isLt).1 hj).trans ?_
  refine (block_at m c t h3 (j 0) (j 1)).trans ?_
  refine congrArg (rows m c) (funext fun a => Fin.ext ?_)
  match a with
  | ⟨0, _⟩ => show 1024 * (t.val / 32) + (j 0).val = win0_7.index t (0 : Fin 2) * 1024 + 1 * (j 0).val; rw [e0]; omega
  | ⟨1, _⟩ => show 512 * (t.val / 4 % 8) + (j 1).val = win0_7.index t (1 : Fin 2) * 512 + 1 * (j 1).val; rw [e1]; omega

/-- Every index of the [8192, 4096] array is in the block some last step writes back: row block `i₀ / 1024`,
    column block `i₁ / 512`, the reduction's last point. -/
theorem covered (c : Dev nD) (i : S8192x4096.Idx) :
    ∃ t : Fin cfg0.N, (cfg0.win 7).flush t = true ∧ i ∈ ((cfg0.win 7).blk t).view.set := by
  have hN : cfg0.N = 256 := N_0
  have h0 : (i 0).val < 8192 := (i 0).isLt
  have h1 : (i 1).val < 4096 := (i 1).isLt
  have hlt : 32 * ((i 0).val / 1024) + 4 * ((i 1).val / 512) + 3 < cfg0.N := by omega
  refine ⟨⟨32 * ((i 0).val / 1024) + 4 * ((i 1).val / 512) + 3, hlt⟩, (flush0_7 ⟨32 * ((i 0).val / 1024) + 4 * ((i 1).val / 512) + 3, hlt⟩).mpr (by show (32 * ((i 0).val / 1024) + 4 * ((i 1).val / 512) + 3) % 4 = 3; omega), ?_⟩
  obtain ⟨e0, e1⟩ := idx_out ⟨32 * ((i 0).val / 1024) + 4 * ((i 1).val / 512) + 3, hlt⟩
  show i ∈ ((View.whole main_v2).slice (win0_7.rect ⟨32 * ((i 0).val / 1024) + 4 * ((i 1).val / 512) + 3, hlt⟩)).set
  rw [View.set_slice_whole, Rect.mem_set_unit]
  intro a
  match a with
  | ⟨0, _⟩ =>
    show win0_7.index ⟨32 * ((i 0).val / 1024) + 4 * ((i 1).val / 512) + 3, hlt⟩ (0 : Fin 2) * 1024 ≤ (i 0).val ∧ (i 0).val < win0_7.index ⟨32 * ((i 0).val / 1024) + 4 * ((i 1).val / 512) + 3, hlt⟩ (0 : Fin 2) * 1024 + 1024
    rw [e0]
    show (32 * ((i 0).val / 1024) + 4 * ((i 1).val / 512) + 3) / 32 * 1024 ≤ (i 0).val ∧ (i 0).val < (32 * ((i 0).val / 1024) + 4 * ((i 1).val / 512) + 3) / 32 * 1024 + 1024
    omega
  | ⟨1, _⟩ =>
    show win0_7.index ⟨32 * ((i 0).val / 1024) + 4 * ((i 1).val / 512) + 3, hlt⟩ (1 : Fin 2) * 512 ≤ (i 1).val ∧ (i 1).val < win0_7.index ⟨32 * ((i 0).val / 1024) + 4 * ((i 1).val / 512) + 3, hlt⟩ (1 : Fin 2) * 512 + 512
    rw [e1]
    show (32 * ((i 0).val / 1024) + 4 * ((i 1).val / 512) + 3) / 4 % 8 * 512 ≤ (i 1).val ∧ (i 1).val < (32 * ((i 0).val / 1024) + 4 * ((i 1).val / 512) + 3) / 4 % 8 * 512 + 512
    omega

/-- So the array the region writes ends holding `rows`. -/
theorem final_rows (c : Dev nD) : (dats m 0 c).arrAt 7 cfg0.N = rows m c :=
  (dats m 0 c).arrAt_eq_of_cover 7 (rows m c) (flushed_eq m c) (covered c)

/-- The host reshape after the region: the result at (b, t, o) is row `2048 b + t`, column o of that array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  funext i
  show shapeCast S4x2048x4096 (Pipeline.withArrays (cfgs 0).spec c (V0 m c) (fun w => (dats m 0 c).arrAt w (cfgs 0).N) (Proc.tc.devRef main_v2)) shapeCasts_S8192x4096_S4x2048x4096 i = result m c i
  have hw : (Pipeline.withArrays (cfgs 0).spec c (V0 m c) (fun w => (dats m 0 c).arrAt w (cfgs 0).N) (Proc.tc.devRef main_v2) : S8192x4096.Idx → EReal) = rows m c :=
    (Pipeline.withArrays_arr spec0 launch0.win.arr_inj c _ _ 7).trans (final_rows m c)
  rw [hw]
  have h0 : (i 0).val < 4 := (i 0).isLt
  have h1 : (i 1).val < 2048 := (i 1).isLt
  have h2 : (i 2).val < 4096 := (i 2).isLt
  refine (shapeCast_apply (s := S8192x4096) (t := S4x2048x4096) (rows m c) shapeCasts_S8192x4096_S4x2048x4096 i (ix2 ⟨2048 * (i 0).val + (i 1).val, by omega⟩ ⟨(i 2).val, h2⟩)
    (by show (S8192x4096.rowMajor (ix2 ⟨2048 * (i 0).val + (i 1).val, by omega⟩ ⟨(i 2).val, h2⟩)).val = (S4x2048x4096.rowMajor i).val
        rw [Shape.rowMajor_val_two, Shape.rowMajor_val_three]
        show (2048 * (i 0).val + (i 1).val) * 4096 + (i 2).val = ((i 0).val * 2048 + (i 1).val) * 4096 + (i 2).val
        omega)).trans ?_
  unfold rows result
  exact layer_congr m c (by show (2048 * (i 0).val + (i 1).val) / 2048 = (i 0).val; omega)
    (by show (2048 * (i 0).val + (i 1).val) % 2048 = (i 1).val; omega) rfl

/-- THE RUN, READ: every weakly fair execution of the idealized kernel's @main terminates with the result array at
    the layer's function of the launch contents of the seven arguments, and the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Value

end
-- ==== Proof.RefSide.lean ====
/-
  The reference, read at one index of its result over the extended reals: its nineteen host operations composed
  are the layer's function `Cert.QLora.out` of the seven arguments. The dequantisation reshapes the codes to
  [4096, 64, 64], so the code of input feature i of output o sits at (o, i / 64, i % 64) beside its group's
  zero point and scale; the three contractions are plain sums over the contracted axis.
-/
import proofs.«165903_j31705448579867_1_alg».proof.Proof.Gen.ReferenceIdeal.Read
import proofs.«165903_j31705448579867_1_alg».proof.Proof.Spec

noncomputable section

namespace Cert.QLora.Ref

open Cert.ReferenceIdeal Cert.ReferenceIdeal.Read Idealize.ShloMosaic Idealize.ShloMosaic.ValueIdx

/-! ## Where the reshapes and broadcasts of the dequantisation read

Entry (o, i) of the [4096, 4096] weight is entry (o, i / 64, i % 64) of the [4096, 64, 64] product, since
o * 4096 + i = (o * 64 + i / 64) * 64 + i % 64. -/

/-- The code under entry (o, i) of the reshaped weight is the code at (o, i): the two reshapes undo each other. -/
theorem code_idx (o i : Fin 4096) : idx_main_v1 (idx_main_v8 (ix2 o i)) = ix2 o i :=
  funext fun a => Fin.ext (by
    have ho := o.isLt
    have hi := i.isLt
    match a with
    | ⟨0, _⟩ =>
      show ((((o.val * 4096 + i.val) / 4096) * 64 + (o.val * 4096 + i.val) / 64 % 64) * 64
        + (o.val * 4096 + i.val) % 64) / 4096 = o.val
      omega
    | ⟨1, _⟩ =>
      show ((((o.val * 4096 + i.val) / 4096) * 64 + (o.val * 4096 + i.val) / 64 % 64) * 64
        + (o.val * 4096 + i.val) % 64) % 4096 = i.val
      omega)

/-- The zero point under entry (o, i) of the reshaped weight is the one of output o and of i's group. -/
theorem zero_idx (o i : Fin 4096) : idx_main_v2 (idx_main_v3 (idx_main_v8 (ix2 o i))) = ix2 o (grp i) :=
  funext fun a => Fin.ext (by
    have ho := o.isLt
    have hi := i.isLt
    match a with
    | ⟨0, _⟩ =>
      show (o.val * 4096 + i.val) / 4096 = o.val
      omega
    | ⟨1, _⟩ =>
      show (o.val * 4096 + i.val) / 64 % 64 = i.val / 64
      omega)

/-- The scale under entry (o, i) of the reshaped weight is the one of output o and of i's group. -/
theorem scale_idx (o i : Fin 4096) : idx_main_v5 (idx_main_v6 (idx_main_v8 (ix2 o i))) = ix2 o (grp i) :=
  funext fun a => Fin.ext (by
    have ho := o.isLt
    have hi := i.isLt
    match a with
    | ⟨0, _⟩ =>
      show (o.val * 4096 + i.val) / 4096 = o.val
      omega
    | ⟨1, _⟩ =>
      show (o.val * 4096 + i.val) / 64 % 64 = i.val / 64
      omega)

/-- The reference's weight at (o, i) is the dequantised weight: (code - zero point of the group) * scale of the group. -/
theorem weight_apply (x1 : (⟨S4096x4096, .i32⟩ : BufTy).Contents (Elt Ideal))
    (x2 x3 : (⟨S4096x64, .f32⟩ : BufTy).Contents (Elt Ideal)) (o i : Fin 4096) :
    val_main_v8 (F := Ideal) x1 x2 x3 (ix2 o i) = wdq x1 x2 x3 o i := by
  rw [val_main_v8_apply, val_main_v7_apply, val_main_v4_apply, val_main_v1_apply, val_main_v0_apply,
    val_main_v3_apply, val_main_v2_apply, val_main_v6_apply, val_main_v5_apply, code_idx, zero_idx, scale_idx]
  rfl

/-! ## The three contractions -/

/-- The left operand of a contraction over the last axis, at (b, t, ·), is read at (b, t, k). -/
theorem lidx9 (b : Fin 4) (t : Fin 2048) (o k : Fin 4096) : lidx_main_v9 (ix3 b t o) k = ix3 b t k :=
  funext fun a => match a with | ⟨0, _⟩ => rfl | ⟨1, _⟩ => rfl | ⟨2, _⟩ => rfl

theorem ridx9 (b : Fin 4) (t : Fin 2048) (o k : Fin 4096) : ridx_main_v9 (ix3 b t o) k = ix2 o k :=
  funext fun a => match a with | ⟨0, _⟩ => rfl | ⟨1, _⟩ => rfl

theorem lidx10 (b : Fin 4) (t : Fin 2048) (r : Fin 16) (k : Fin 4096) : lidx_main_v10 (ix3 b t r) k = ix3 b t k :=
  funext fun a => match a with | ⟨0, _⟩ => rfl | ⟨1, _⟩ => rfl | ⟨2, _⟩ => rfl

theorem ridx10 (b : Fin 4) (t : Fin 2048) (r : Fin 16) (k : Fin 4096) : ridx_main_v10 (ix3 b t r) k = ix2 r k :=
  funext fun a => match a with | ⟨0, _⟩ => rfl | ⟨1, _⟩ => rfl

theorem lidx11 (b : Fin 4) (t : Fin 2048) (o : Fin 4096) (k : Fin 16) : lidx_main_v11 (ix3 b t o) k = ix3 b t k :=
  funext fun a => match a with | ⟨0, _⟩ => rfl | ⟨1, _⟩ => rfl | ⟨2, _⟩ => rfl

theorem ridx11 (b : Fin 4) (t : Fin 2048) (o : Fin 4096) (k : Fin 16) : ridx_main_v11 (ix3 b t o) k = ix2 o k :=
  funext fun a => match a with | ⟨0, _⟩ => rfl | ⟨1, _⟩ => rfl

/-- The base product at (b, t, o): x's row (b, t) against row o of the dequantised weight. -/
theorem base_apply (x0 : (⟨S4x2048x4096, .f32⟩ : BufTy).Contents (Elt Ideal))
    (x1 : (⟨S4096x4096, .i32⟩ : BufTy).Contents (Elt Ideal)) (x2 x3 : (⟨S4096x64, .f32⟩ : BufTy).Contents (Elt Ideal))
    (b : Fin 4) (t : Fin 2048) (o : Fin 4096) :
    val_main_v9 (F := Ideal) x0 x1 x2 x3 (ix3 b t o) = ∑ i : Fin 4096, x0 (ix3 b t i) * wdq x1 x2 x3 o i := by
  rw [val_main_v9_apply]
  refine Finset.sum_congr rfl fun k _ => ?_
  rw [lidx9, ridx9, weight_apply]

/-- The low-rank projection at (b, t, r): x's row (b, t) against row r of A. -/
theorem down_apply (x0 : (⟨S4x2048x4096, .f32⟩ : BufTy).Contents (Elt Ideal))
    (x4 : (⟨S16x4096, .f32⟩ : BufTy).Contents (Elt Ideal)) (b : Fin 4) (t : Fin 2048) (r : Fin 16) :
    val_main_v10 (F := Ideal) x0 x4 (ix3 b t r) = ∑ i : Fin 4096, x0 (ix3 b t i) * x4 (ix2 r i) := by
  rw [val_main_v10_apply]
  refine Finset.sum_congr rfl fun k _ => ?_
  rw [lidx10, ridx10]

/-- The low-rank product at (b, t, o): the projection's row (b, t) against row o of B. -/
theorem up_apply (x0 : (⟨S4x2048x4096, .f32⟩ : BufTy).Contents (Elt Ideal))
    (x4 : (⟨S16x4096, .f32⟩ : BufTy).Contents (Elt Ideal)) (x5 : (⟨S4096x16, .f32⟩ : BufTy).Contents (Elt Ideal))
    (b : Fin 4) (t : Fin 2048) (o : Fin 4096) :
    val_main_v11 (F := Ideal) x0 x4 x5 (ix3 b t o)
      = ∑ r : Fin 16, (∑ i : Fin 4096, x0 (ix3 b t i) * x4 (ix2 r i)) * x5 (ix2 o r) := by
  rw [val_main_v11_apply]
  refine Finset.sum_congr rfl fun k _ => ?_
  rw [lidx11, ridx11, down_apply]

/-! ## The bias and the whole -/

/-- The bias broadcast over (b, t) reads bias[o] at (b, t, o). -/
theorem bias_idx (b : Fin 4) (t : Fin 2048) (o : Fin 4096) : idx_main_v15 (idx_main_v16 (ix3 b t o)) = ix1 o :=
  funext fun a => match a with | ⟨0, _⟩ => rfl

theorem bias_apply (x6 : (⟨S4096, .f32⟩ : BufTy).Contents (Elt Ideal)) (b : Fin 4) (t : Fin 2048) (o : Fin 4096) :
    val_main_v16 (F := Ideal) x6 (ix3 b t o) = x6 (ix1 o) := by
  rw [val_main_v16_apply, val_main_v15_apply, bias_idx]

/-- The reference's result at (b, t, o) is the layer's function there. -/
theorem ref_apply
    (x0 : (⟨S4x2048x4096, .f32⟩ : BufTy).Contents (Elt Ideal)) (x1 : (⟨S4096x4096, .i32⟩ : BufTy).Contents (Elt Ideal))
    (x2 x3 : (⟨S4096x64, .f32⟩ : BufTy).Contents (Elt Ideal)) (x4 : (⟨S16x4096, .f32⟩ : BufTy).Contents (Elt Ideal))
    (x5 : (⟨S4096x16, .f32⟩ : BufTy).Contents (Elt Ideal)) (x6 : (⟨S4096, .f32⟩ : BufTy).Contents (Elt Ideal))
    (b : Fin 4) (t : Fin 2048) (o : Fin 4096) :
    val_main_v17 (F := Ideal) x0 x1 x2 x3 x4 x5 x6 (ix3 b t o) = Cert.QLora.out x0 x1 x2 x3 x4 x5 x6 b t o := by
  rw [val_main_v17_apply, val_main_v14_apply, val_main_v13_apply, val_main_v12_apply, val_main_cst_apply,
    base_apply, up_apply, bias_apply]
  rfl

end Cert.QLora.Ref

end
-- ==== Proof.lean ====
/- The proof of `Cert.Claim` (proofs.«165903_j31705448579867_1_alg».proof.Defs): a 4-bit group-quantised linear layer with a rank-16
   low-rank update and a bias, fused into one kernel over a grid of 8 row blocks × 8 column blocks × 4 reduction
   steps, against its plain formulation.

   Over the extended reals both programs compute, at (b, t, o),
       (Σ_i x[b,t,i] · W[o,i]  +  (1/16) · Σ_r (Σ_i x[b,t,i] · A[r,i]) · B[o,r])  +  bias[o],
       W[o,i] = (q[o,i] − zeros[o, i/64]) · scales[o, i/64]
   (Proof/Spec.lean `Cert.QLora.out`). The reference does so literally (Proof/RefSide.lean, over the generated
   read-at-an-index lemmas of its nineteen operations). The kernel reaches each contraction over the 4096 input
   features as four partial sums over 1024 features, added in order onto a zero block kept between grid steps, and
   combines on a reduction's last step; sums of extended reals regroup freely, so no finiteness is used: the claims'
   precondition is never opened. The kernel side: what one run of the body leaves (Proof/Pieces.lean, read off the
   generated frame run), a reduction's four steps unrolled (Proof/Steps.lean, Proof/GroupValue.lean, with the
   body's arithmetic at an index in Proof/Payload.lean and the blocks' positions in Proof/Blocks.lean), and the
   array after the run with the host reshape after it (Proof/KernelValue.lean).
   The three frames are the generated ones (the reference's: its generated run with the result dropped);
   the ideal pass rewrote nothing, so `preserves` is `True`. -/
import proofs.«165903_j31705448579867_1_alg».proof.Defs
import proofs.«165903_j31705448579867_1_alg».proof.Proof.Gen.Kernel
import proofs.«165903_j31705448579867_1_alg».proof.Proof.Gen.Kernel.Skeleton
import proofs.«165903_j31705448579867_1_alg».proof.Proof.Gen.Kernel.Launch
import proofs.«165903_j31705448579867_1_alg».proof.Proof.Gen.Kernel.Points
import proofs.«165903_j31705448579867_1_alg».proof.Proof.Gen.Kernel.Frame
import proofs.«165903_j31705448579867_1_alg».proof.Proof.Gen.KernelIdeal
import proofs.«165903_j31705448579867_1_alg».proof.Proof.Gen.KernelIdeal.Skeleton
import proofs.«165903_j31705448579867_1_alg».proof.Proof.Gen.KernelIdeal.Launch
import proofs.«165903_j31705448579867_1_alg».proof.Proof.Gen.KernelIdeal.Points
import proofs.«165903_j31705448579867_1_alg».proof.Proof.Gen.KernelIdeal.Frame
import proofs.«165903_j31705448579867_1_alg».proof.Proof.Gen.ReferenceIdeal
import proofs.«165903_j31705448579867_1_alg».proof.Proof.Gen.ReferenceIdeal.Run
import proofs.«165903_j31705448579867_1_alg».proof.Proof.Gen.ReferenceIdeal.Read
import proofs.«165903_j31705448579867_1_alg».proof.Proof.Gen.Pre_finite_inputs
import proofs.«165903_j31705448579867_1_alg».proof.Proof.KernelValue
import proofs.«165903_j31705448579867_1_alg».proof.Proof.RefSide
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's function of the (agreeing) arguments: the kernel's by `KernelValue.run`, the
    reference's generated run at its composed term, which is that function index by index (`ref_apply`). -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  obtain ⟨a0, a1, a2, a3, a4, a5, a6⟩ := hagree c
  rw [a0, a1, a2, a3, a4, a5, a6]
  funext i
  have hi : i = ix3 (i 0) (i 1) (i 2) := eq_ix3 i
  rw [hi]
  exact Cert.QLora.Ref.ref_apply _ _ _ _ _ _ _ (i 0) (i 1) (i 2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
